-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x8192 : Shape := ⟨2, ![8192, 8192]⟩
abbrev S256x256 : Shape := ⟨2, ![256, 256]⟩
abbrev S256 : Shape := ⟨1, ![256]⟩
abbrev S128x256 : Shape := ⟨2, ![128, 256]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64x128 .f32) (main_arg8 : FVec F S64 .f32) (main_v33 : IVec S_ 1) : IVec S_ 1 :=
  let main_v34 : FVec F S64x128 .f32 := Host.absf main_arg7
  let main_cst_12 : FVec F S_ .f32 := constant S_ .f32 0x7F800000#32
  let main_v35 : FVec F S64x128 .f32 := broadcastInDim S64x128 ![] bcast_S_S64x128 main_cst_12
  let main_v36 : IVec S64x128 1 := cmpf .olt main_v34 main_v35
  let main_c_13 : IVec S_ 1 := constantI S_ 1 1#1
  let main_v37 : IVec S_ 1 := (fun x v => Host.reduce IntOp.andi x v reducesTo_S64x128_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg4 : FVec F S256 .f32) (main_arg5 : FVec F S128x256 .f32) (main_arg6 : FVec F S128 .f32) (main_arg7 : FVec F S64x128 .f32) (main_arg8 : FVec F S64 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S128x256 .f32 := Host.absf main_arg5
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_v33

def fn {F : FTy → Type} [FloatOps F] (main_arg0 : FVec F S8192x128 .f32) (main_arg1 : FVec F S8192x8192 .f32) (main_arg2 : FVec F S256x256 .f32) (main_arg3 : FVec F S256x256 .f32) (main_arg4 : FVec F S256 .f32) (main_arg5 : FVec F S128x256 .f32) (main_arg6 : FVec F S128 .f32) (main_arg7 : FVec F S64x128 .f32) (main_arg8 : FVec F S64 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_v13 main_v16
-- ==== Kernel.lean ====
abbrev S8192x128 : Shape := ⟨2, ![8192, 128]⟩
abbrev S8192x8192 : Shape := ⟨2, ![8192, 8192]⟩
abbrev S256x256 : Shape := ⟨2, ![256, 256]⟩
abbrev S256 : Shape := ⟨1, ![256]⟩
abbrev S128x256 : Shape := ⟨2, ![128, 256]⟩
abbrev S128 : Shape := ⟨1, ![128]⟩
abbrev S64x128 : Shape := ⟨2, ![64, 128]⟩
abbrev S64 : Shape := ⟨1, ![64]⟩
abbrev S256x128 : Shape := ⟨2, ![256, 128]⟩
abbrev S128x64 : Shape := ⟨2, ![128, 64]⟩
abbrev S1x256 : Shape := ⟨2, ![1, 256]⟩
abbrev S1x128 : Shape := ⟨2, ![1, 128]⟩
abbrev S1x64 : Shape := ⟨2, ![1, 64]⟩
abbrev S8192x64 : Shape := ⟨2, ![8192, 64]⟩
abbrev S512x8192 : Shape := ⟨2, ![512, 8192]⟩
abbrev S512x64 : Shape := ⟨2, ![512, 64]⟩
abbrev S512 : Shape := ⟨1, ![512]⟩
abbrev S512x1 : Shape := ⟨2, ![512, 1]⟩
abbrev S512x128 : Shape := ⟨2, ![512, 128]⟩
abbrev S512x256 : Shape := ⟨2, ![512, 256]⟩

abbrev nBuf : Space → Nat
  | .hbm => 20
  | .vmem => 13
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S256x256, .f32⟩
  | .hbm, ⟨3, _⟩ => ⟨S256x256, .f32⟩
  | .hbm, ⟨4, _⟩ => ⟨S256, .f32⟩
  | .hbm, ⟨5, _⟩ => ⟨S128x256, .f32⟩
  | .hbm, ⟨6, _⟩ => ⟨S128, .f32⟩
  | .hbm, ⟨7, _⟩ => ⟨S64x128, .f32⟩
  | .hbm, ⟨8, _⟩ => ⟨S64, .f32⟩
  | .hbm, ⟨9, _⟩ => ⟨S256x128, .f32⟩
  | .hbm, ⟨10, _⟩ => ⟨S128x256, .f32⟩
  | .hbm, ⟨11, _⟩ => ⟨S256x128, .f32⟩
  | .hbm, ⟨12, _⟩ => ⟨S128x256, .f32⟩
  | .hbm, ⟨13, _⟩ => ⟨S256x256, .f32⟩
  | .hbm, ⟨14, _⟩ => ⟨S256x128, .f32⟩
  | .hbm, ⟨15, _⟩ => ⟨S128x64, .f32⟩
  | .hbm, ⟨16, _⟩ => ⟨S1x256, .f32⟩
  | .hbm, ⟨17, _⟩ => ⟨S1x128, .f32⟩
  | .hbm, ⟨18, _⟩ => ⟨S1x64, .f32⟩
  | .hbm, ⟨19, _⟩ => ⟨S8192x64, .f32⟩
  | .local _ .vmem, ⟨0, _⟩ => ⟨S512x8192, .f32⟩
  | .local _ .vmem, ⟨1, _⟩ => ⟨S512x8192, .f32⟩
  | .local _ .vmem, ⟨2, _⟩ => ⟨S8192x128, .f32⟩
  | .local _ .vmem, ⟨3, _⟩ => ⟨S128x256, .f32⟩
  | .local _ .vmem, ⟨4, _⟩ => ⟨S128x256, .f32⟩
  | .local _ .vmem, ⟨5, _⟩ => ⟨S256x256, .f32⟩
  | .local _ .vmem, ⟨6, _⟩ => ⟨S1x256, .f32⟩
  | .local _ .vmem, ⟨7, _⟩ => ⟨S256x128, .f32⟩
  | .local _ .vmem, ⟨8, _⟩ => ⟨S1x128, .f32⟩
  | .local _ .vmem, ⟨9, _⟩ => ⟨S128x64, .f32⟩
  | .local _ .vmem, ⟨10, _⟩ => ⟨S1x64, .f32⟩
  | .local _ .vmem, ⟨11, _⟩ => ⟨S512x64, .f32⟩
  | .local _ .vmem, ⟨12, _⟩ => ⟨S512x64, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_v0 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let arg0 : BitVec 32 := BitVec.ofNat 32 (i 0).val
  let c512_i32 : BitVec 32 := 512#32
  let v9 : BitVec 32 := Scalar.muli arg0 c512_i32
  let v10 : Index := Scalar.indexCast v9
  let c0_5 : Index := 0#32
  ![v10.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  slices_S256x256_S256x128_0_0 : S256x256.Slices ![0, 0] S256x128
  transposes_S256x128_S128x256_1_0 : S256x128.Transposes [1, 0] S128x256
  slices_S256x256_S256x128_0_128 : S256x256.Slices ![0, 128] S256x128
  transposes_S256x256_S256x256_1_0 : S256x256.Transposes [1, 0] S256x256
  transposes_S128x256_S256x128_1_0 : S128x256.Transposes [1, 0] S256x128
  transposes_S64x128_S128x64_1_0 : S64x128.Transposes [1, 0] S128x64
  shapeCasts_S256_S1x256 : S256.ShapeCasts S1x256
  shapeCasts_S128_S1x128 : S128.ShapeCasts S1x128
  shapeCasts_S64_S1x64 : S64.ShapeCasts S1x64
  inb_S512x8192_S512x8192_0_0 : ∀ a, (![0, 0] : Fin 2 → Nat) a + S512x8192.size a ≤ S512x8192.size a
  h_S512x8192 : 0 < S512x8192.numel
  reduces_S512x8192_S512 : S512x8192.Reduces [1] S512
  shapeCasts_S512_S512x1 : S512.ShapeCasts S512x1
  inb_S8192x128_S8192x128_0_0 : ∀ a, (![0, 0] : Fin 2 → Nat) a + S8192x128.size a ≤ S8192x128.size a
  h_S8192x128 : 0 < S8192x128.numel
  broadcasts_S512x1_S512x128 : S512x1.Broadcasts S512x128
  h_S512x128 : 0 < S512x128.numel
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  reduces_S512x64_S512 : S512x64.Reduces [1] S512
  broadcasts_S512x1_S512x64 : S512x1.Broadcasts S512x64
  inb_S512x64_S512x64_0_0 : ∀ a, (![0, 0] : Fin 2 → Nat) a + S512x64.size a ≤ S512x64.size a
  h_S512x64 : 0 < S512x64.numel
  dot_S512x8192_S8192x128_S512x128_1_0_0_1_n_n_wf : DotDims.WF S512x8192 S8192x128 S512x128 [1] [0] [0] [1] [] []
  dot_S512x128_S128x256_S512x256_1_0_0_1_n_n_wf : DotDims.WF S512x128 S128x256 S512x256 [1] [0] [0] [1] [] []
  dot_S512x256_S256x256_S512x256_1_0_0_1_n_n_wf : DotDims.WF S512x256 S256x256 S512x256 [1] [0] [0] [1] [] []
  dot_S512x256_S256x128_S512x128_1_0_0_1_n_n_wf : DotDims.WF S512x256 S256x128 S512x128 [1] [0] [0] [1] [] []
  dot_S512x128_S128x64_S512x64_1_0_0_1_n_n_wf : DotDims.WF S512x128 S128x64 S512x64 [1] [0] [0] [1] [] []
  hrank0 : 0 < grid0.rank
  k0_off1_inb : ∀ i : grid0.Coords, ∀ a, (k0_off1 i) a + S512x128.size a ≤ S8192x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x8192.size a ≤ S8192x8192.size a
  hwx0_0 : ∀ i : grid0.Coords, EltTy.bits .f32 = 32 ∨ (Rect.block (s := S8192x8192) S512x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x128.size a
  hwx0_1 : ∀ i : grid0.Coords, EltTy.bits .f32 = 32 ∨ (Rect.block (s := S8192x128) S8192x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x128.size a ≤ S256x128.size a
  hwx0_6 : ∀ i : grid0.Coords, EltTy.bits .f32 = 32 ∨ (Rect.block (s := S256x128) S256x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x64.size a ≤ S128x64.size a
  hwx0_8 : ∀ i : grid0.Coords, EltTy.bits .f32 = 32 ∨ (Rect.block (s := S128x64) S128x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x64.size a ≤ S1x64.size a
  hwx0_9 : ∀ i : grid0.Coords, EltTy.bits .f32 = 32 ∨ (Rect.block (s := S1x64) S1x64.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x64.size a ≤ S8192x64.size a
  hwx0_10 : ∀ i : grid0.Coords, EltTy.bits .f32 = 32 ∨ (Rect.block (s := S8192x64) S512x64.size (cc0_transform_10 i) (hinb0_10 i)).WholeWords (EltTy.packing .f32)

variable [Facts₀]

def dot_S512x8192_S8192x128_S512x128_1_0_0_1_n_n : DotDims S512x8192 S8192x128 S512x128 where
  lhsContracting := [1]
  rhsContracting := [0]
  lhsNonContracting := [0]
  rhsNonContracting := [1]
  lhsBatch := []
  rhsBatch := []
  wf := dot_S512x8192_S8192x128_S512x128_1_0_0_1_n_n_wf
def dot_S512x128_S128x256_S512x256_1_0_0_1_n_n : DotDims S512x128 S128x256 S512x256 where
  lhsContracting := [1]
  rhsContracting := [0]
  lhsNonContracting := [0]
  rhsNonContracting := [1]
  lhsBatch := []
  rhsBatch := []
  wf := dot_S512x128_S128x256_S512x256_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf
def dot_S512x128_S128x64_S512x64_1_0_0_1_n_n : DotDims S512x128 S128x64 S512x64 where
  lhsContracting := [1]
  rhsContracting := [0]
  lhsNonContracting := [0]
  rhsNonContracting := [1]
  lhsBatch := []
  rhsBatch := []
  wf := dot_S512x128_S128x64_S512x64_1_0_0_1_n_n_wf

abbrev win0_0 : Pipeline.Window sig grid0 :=
  Pipeline.Window.ofSpec (Memref.whole main_arg1) S512x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S8192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v3) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v4) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v7) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v5) S256x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v8) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_call0_v6) S128x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_call0_v9) S1x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v0) S512x64.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S8192x128 : Shape := ⟨2, ![8192, 128]⟩
abbrev S8192x8192 : Shape := ⟨2, ![8192, 8192]⟩
abbrev S256x256 : Shape := ⟨2, ![256, 256]⟩
abbrev S256 : Shape := ⟨1, ![256]⟩
abbrev S128x256 : Shape := ⟨2, ![128, 256]⟩
abbrev S128 : Shape := ⟨1, ![128]⟩
abbrev S64x128 : Shape := ⟨2, ![64, 128]⟩
abbrev S64 : Shape := ⟨1, ![64]⟩
abbrev S_ : Shape := ⟨0, ![]⟩
abbrev S8192 : Shape := ⟨1, ![8192]⟩
abbrev S8192x1 : Shape := ⟨2, ![8192, 1]⟩
abbrev S8192x256 : Shape := ⟨2, ![8192, 256]⟩
abbrev S1x256 : Shape := ⟨2, ![1, 256]⟩
abbrev S256x128 : Shape := ⟨2, ![256, 128]⟩
abbrev S1x128 : Shape := ⟨2, ![1, 128]⟩
abbrev S128x64 : Shape := ⟨2, ![128, 64]⟩
abbrev S8192x64 : Shape := ⟨2, ![8192, 64]⟩
abbrev S1x64 : Shape := ⟨2, ![1, 64]⟩

abbrev nBuf : Space → Nat
  | .hbm => 77
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S256x256, .f32⟩
  | .hbm, ⟨3, _⟩ => ⟨S256x256, .f32⟩
  | .hbm, ⟨4, _⟩ => ⟨S256, .f32⟩
  | .hbm, ⟨5, _⟩ => ⟨S128x256, .f32⟩
  | .hbm, ⟨6, _⟩ => ⟨S128, .f32⟩
  | .hbm, ⟨7, _⟩ => ⟨S64x128, .f32⟩
  | .hbm, ⟨8, _⟩ => ⟨S64, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x128, .f32⟩
  | .hbm, ⟨16, _⟩ => ⟨S8192x128, .f32⟩
  | .hbm, ⟨17, _⟩ => ⟨S8192x128, .f32⟩
  | .hbm, ⟨18, _⟩ => ⟨S8192x256, .f32⟩
  | .hbm, ⟨19, _⟩ => ⟨S256x256, .f32⟩
  | .hbm, ⟨20, _⟩ => ⟨S8192x256, .f32⟩
  | .hbm, ⟨21, _⟩ => ⟨S_, .f32⟩
  | .hbm, ⟨22, _⟩ => ⟨S8192x256, .f32⟩
  | .hbm, ⟨23, _⟩ => ⟨S8192x256, .f32⟩
  | .hbm, ⟨24, _⟩ => ⟨S256x256, .f32⟩
  | .hbm, ⟨25, _⟩ => ⟨S8192x256, .f32⟩
  | .hbm, ⟨26, _⟩ => ⟨S1x256, .f32⟩
  | .hbm, ⟨27, _⟩ => ⟨S8192x256, .f32⟩
  | .hbm, ⟨28, _⟩ => ⟨S8192x256, .f32⟩
  | .hbm, ⟨29, _⟩ => ⟨S_, .f32⟩
  | .hbm, ⟨30, _⟩ => ⟨S_, .f32⟩
  | .hbm, ⟨31, _⟩ => ⟨S8192x256, .f32⟩
  | .hbm, ⟨32, _⟩ => ⟨S8192x256, .i1⟩
  | .hbm, ⟨33, _⟩ => ⟨S_, .f32⟩
  | .hbm, ⟨34, _⟩ => ⟨S8192x256, .f32⟩
  | .hbm, ⟨35, _⟩ => ⟨S8192x256, .f32⟩
  | .hbm, ⟨36, _⟩ => ⟨S8192x256, .f32⟩
  | .hbm, ⟨37, _⟩ => ⟨S256x128, .f32⟩
  | .hbm, ⟨38, _⟩ => ⟨S8192x128, .f32⟩
  | .hbm, ⟨39, _⟩ => ⟨S1x128, .f32⟩
  | .hbm, ⟨40, _⟩ => ⟨S8192x128, .f32⟩
  | .hbm, ⟨41, _⟩ => ⟨S8192x128, .f32⟩
  | .hbm, ⟨42, _⟩ => ⟨S_, .f32⟩
  | .hbm, ⟨43, _⟩ => ⟨S_, .f32⟩
  | .hbm, ⟨44, _⟩ => ⟨S8192x128, .f32⟩
  | .hbm, ⟨45, _⟩ => ⟨S8192x128, .i1⟩
  | .hbm, ⟨46, _⟩ => ⟨S_, .f32⟩
  | .hbm, ⟨47, _⟩ => ⟨S8192x128, .f32⟩
  | .hbm, ⟨48, _⟩ => ⟨S8192x128, .f32⟩
  | .hbm, ⟨49, _⟩ => ⟨S8192x128, .f32⟩
  | .hbm, ⟨50, _⟩ => ⟨S128x64, .f32⟩
  | .hbm, ⟨51, _⟩ => ⟨S8192x64, .f32⟩
  | .hbm, ⟨52, _⟩ => ⟨S1x64, .f32⟩
  | .hbm, ⟨53, _⟩ => ⟨S8192x64, .f32⟩
  | .hbm, ⟨54, _⟩ => ⟨S8192x64, .f32⟩
  | .hbm, ⟨55, _⟩ => ⟨S_, .f32⟩
  | .hbm, ⟨56, _⟩ => ⟨S_, .f32⟩
  | .hbm, ⟨57, _⟩ => ⟨S8192x64, .f32⟩
  | .hbm, ⟨58, _⟩ => ⟨S8192x64, .i1⟩
  | .hbm, ⟨59, _⟩ => ⟨S_, .f32⟩
  | .hbm, ⟨60, _⟩ => ⟨S8192x64, .f32⟩
  | .hbm, ⟨61, _⟩ => ⟨S8192x64, .f32⟩
  | .hbm, ⟨62, _⟩ => ⟨S8192x64, .f32⟩
  | .hbm, ⟨63, _⟩ => ⟨S_, .f32⟩
  | .hbm, ⟨64, _⟩ => ⟨S8192, .f32⟩
  | .hbm, ⟨65, _⟩ => ⟨S_, .f32⟩
  | .hbm, ⟨66, _⟩ => ⟨S8192, .f32⟩
  | .hbm, ⟨67, _⟩ => ⟨S8192, .f32⟩
  | .hbm, ⟨68, _⟩ => ⟨S8192x1, .f32⟩
  | .hbm, ⟨69, _⟩ => ⟨S8192x64, .f32⟩
  | .hbm, ⟨70, _⟩ => ⟨S8192x64, .f32⟩
  | .hbm, ⟨71, _⟩ => ⟨S8192x64, .f32⟩
  | .hbm, ⟨72, _⟩ => ⟨S_, .f32⟩
  | .hbm, ⟨73, _⟩ => ⟨S8192, .f32⟩
  | .hbm, ⟨74, _⟩ => ⟨S8192x1, .f32⟩
  | .hbm, ⟨75, _⟩ => ⟨S8192x64, .f32⟩
  | .hbm, ⟨76, _⟩ => ⟨S8192x64, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_call0_cst : Ref sig .tc := ⟨.hbm, 21, rfl⟩
abbrev main_call0_v0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_1 : Ref sig .tc := ⟨.hbm, 29, rfl⟩
abbrev main_call1_cst : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_2 : Ref sig .tc := ⟨.hbm, 42, rfl⟩
abbrev main_call2_cst : Ref sig .tc := ⟨.hbm, 43, rfl⟩
abbrev main_call2_v0 : Ref sig .tc := ⟨.hbm, 44, rfl⟩
abbrev main_call2_v1 : Ref sig .tc := ⟨.hbm, 45, rfl⟩
abbrev main_call2_v2 : Ref sig .tc := ⟨.hbm, 46, rfl⟩
abbrev main_call2_v3 : Ref sig .tc := ⟨.hbm, 47, rfl⟩
abbrev main_call2_v4 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_cst_3 : Ref sig .tc := ⟨.hbm, 55, rfl⟩
abbrev main_call3_cst : Ref sig .tc := ⟨.hbm, 56, rfl⟩
abbrev main_call3_v0 : Ref sig .tc := ⟨.hbm, 57, rfl⟩
abbrev main_call3_v1 : Ref sig .tc := ⟨.hbm, 58, rfl⟩
abbrev main_call3_v2 : Ref sig .tc := ⟨.hbm, 59, rfl⟩
abbrev main_call3_v3 : Ref sig .tc := ⟨.hbm, 60, rfl⟩
abbrev main_call3_v4 : Ref sig .tc := ⟨.hbm, 61, rfl⟩
abbrev main_v28 : Ref sig .tc := ⟨.hbm, 62, rfl⟩
abbrev main_cst_4 : Ref sig .tc := ⟨.hbm, 63, rfl⟩
abbrev main_v29 : Ref sig .tc := ⟨.hbm, 64, rfl⟩
abbrev main_cst_5 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_cst_6 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩

abbrev nD : Nat := 1
abbrev τ : Topo := Topo.v7x

variable {F : FTy → Type} [FloatOps F]

class Facts₀ : Prop where
  reducesTo_S8192x8192_S8192_d1 : S8192x8192.ReducesTo [1] S8192
  h_S_ : 0 < S_.numel
  shapeCasts_S8192_S8192x1 : S8192.ShapeCasts S8192x1
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  concatenates_S8192x128_S8192x128_S8192x256_d1 : Shape.Concatenates [S8192x128, S8192x128] S8192x256 1
  transposes_S256x256_S256x256_1_0 : S256x256.Transposes [1, 0] S256x256
  bcast_S_S8192x256 : S_.BroadcastsInDim S8192x256 (![] : Fin 0 → Fin S8192x256.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  transposes_S128x256_S256x128_1_0 : S128x256.Transposes [1, 0] S256x128
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  transposes_S64x128_S128x64_1_0 : S64x128.Transposes [1, 0] S128x64
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S_S8192x64 : S_.BroadcastsInDim S8192x64 (![] : Fin 0 → Fin S8192x64.rank)
  reducesTo_S8192x64_S8192_d1 : S8192x64.ReducesTo [1] S8192
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x64_0_1 : S8192x1.BroadcastsInDim S8192x64 (![0, 1] : Fin 2 → Fin S8192x64.rank)
  dot_S8192x8192_S8192x128_S8192x128_1_0_0_1_n_n_wf : DotDims.WF S8192x8192 S8192x128 S8192x128 [1] [0] [0] [1] [] []
  dot_S8192x256_S256x256_S8192x256_1_0_0_1_n_n_wf : DotDims.WF S8192x256 S256x256 S8192x256 [1] [0] [0] [1] [] []
  dot_S8192x256_S256x128_S8192x128_1_0_0_1_n_n_wf : DotDims.WF S8192x256 S256x128 S8192x128 [1] [0] [0] [1] [] []
  dot_S8192x128_S128x64_S8192x64_1_0_0_1_n_n_wf : DotDims.WF S8192x128 S128x64 S8192x64 [1] [0] [0] [1] [] []

variable [Facts₀]

def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf

class Facts : Prop extends Facts₀ where

variable [Facts]
-- ==== Proof.LibColumn.lean ====
/-
  Column forms of two layout operations, read at an index (general in the sizes).

  A vector of `a` entries cast to an `[a, 1]` column and back, and a column broadcast along a new minor
  axis of extent `b`: what a sum with its reduced axis kept, or a per-row value spread over the lanes,
  prints. Each reads the operand at the row's index.
-/
import Idealize.ShloMosaic.Lib.Pipeline.Value
import Idealize.ShloMosaic.Lib.ValueIdx

namespace Idealize.ShloMosaic.ValueLayout

open Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(i, l)`, the operand at `(i, 0)`, for `1 < a`. -/
theorem broadcastTo_a1_ab_apply {a b : ℕ} (ha : a ≠ 1) (v : (⟨2, ![a, 1]⟩ : Shape).Idx → α)
    (h : (⟨2, ![a, 1]⟩ : Shape).Broadcasts ⟨2, ![a, b]⟩) (i : Fin a) (l : Fin b) :
    broadcastTo ⟨2, ![a, b]⟩ v h (ix2 i l) = v (ix2 i (0 : Fin 1)) :=
  broadcastTo_apply v h _ _ (fun d => by
    match d with
    | ⟨0, _⟩ => show i.val = if a = 1 then 0 else i.val; rw [if_neg ha]
    | ⟨1, _⟩ => show (0 : ℕ) = if (1 : ℕ) = 1 then 0 else l.val; rw [if_pos rfl])

end Idealize.ShloMosaic.ValueLayout
-- ==== Proof.LibPlainDot.lean ====
/-
  A matrix product with the plain dimension numbers, read at an entry (general in the sizes).

  For a left operand `[R, K]`, a right operand `[K, N]` and a result `[R, N]`, when the left operand contracts
  its second axis, the right one its first, neither has a batch axis, and the result's axes are the left
  operand's rows then the right operand's columns, the sum over the contraction index at the entry `(p, q)` is
  the sum over `k : Fin K` of `l (p, k) * r (k, q)`. Stated once for any such record of dimension numbers, it
  reads a kernel's matrix product into a zero accumulator and a host's general dot product the same way.
-/
import Idealize.ShloMosaic.Lib.ValueIdx
import Idealize.ShloMosaic.PureOps.Ideal.Laws

open scoped BigOperators

namespace Idealize.ShloMosaic.PlainDot

open Idealize.ShloMosaic Idealize.ShloMosaic.ValueIdx

variable {R K N : ℕ}

/-- The dimension numbers of `[R, K] · [K, N] → [R, N]`: one contracted axis each (the left operand's columns, the
    right operand's rows), no batch axes, rows before columns in the result. -/
structure IsPlain (d : DotDims (⟨2, ![R, K]⟩ : Shape) (⟨2, ![K, N]⟩ : Shape) (⟨2, ![R, N]⟩ : Shape)) : Prop where
  lc : d.lhsContracting = [1]
  rc : d.rhsContracting = [0]
  ln : d.lhsNonContracting = [0]
  rn : d.rhsNonContracting = [1]
  lb : d.lhsBatch = []
  rb : d.rhsBatch = []

variable {d : DotDims (⟨2, ![R, K]⟩ : Shape) (⟨2, ![K, N]⟩ : Shape) (⟨2, ![R, N]⟩ : Shape)}

private theorem coord_congr {s : Shape} (j : s.Idx) (a b : ℕ) (ha : a < s.rank) (hb : b < s.rank) (h : a = b) :
    (j ⟨a, ha⟩).val = (j ⟨b, hb⟩).val := by subst h; rfl

/-- The left operand's row is the result's row. -/
theorem lhs_row (h : IsPlain d) (j : (⟨2, ![R, N]⟩ : Shape).Idx) (k : d.contr.Idx) :
    (d.lhsIdx j k (0 : Fin 2)).val = (j (0 : Fin 2)).val := by
  have hb : (0 : Fin 2) ∉ d.lhsBatch := by rw [h.lb]; exact List.not_mem_nil
  have hn : (0 : Fin 2) ∈ d.lhsNonContracting := by rw [h.ln]; exact List.mem_singleton.mpr rfl
  unfold DotDims.lhsIdx
  rw [dif_neg hb, dif_pos hn]
  simp only [Fin.val_cast]
  exact coord_congr j _ _ _ _ (by simp [h.lb, h.ln])

/-- The left operand's column is the contraction coordinate. -/
theorem lhs_col (h : IsPlain d) (j : (⟨2, ![R, N]⟩ : Shape).Idx) (k : d.contr.Idx) :
    (d.lhsIdx j k (1 : Fin 2)).val = (k ⟨0, by rw [d.rank_contr, h.lc]; exact Nat.one_pos⟩).val :=
  d.lhsIdx_val_of_single h.lc j k

/-- The right operand's row is the contraction coordinate. -/
theorem rhs_row (h : IsPlain d) (j : (⟨2, ![R, N]⟩ : Shape).Idx) (k : d.contr.Idx) :
    (d.rhsIdx j k (0 : Fin 2)).val = (k ⟨0, by rw [d.rank_contr, ← d.length_contracting, h.rc]; exact Nat.one_pos⟩).val :=
  d.rhsIdx_val_of_single h.rc j k

/-- The right operand's column is the result's column. -/
theorem rhs_col (h : IsPlain d) (j : (⟨2, ![R, N]⟩ : Shape).Idx) (k : d.contr.Idx) :
    (d.rhsIdx j k (1 : Fin 2)).val = (j (1 : Fin 2)).val := by
  have hb : (1 : Fin 2) ∉ d.rhsBatch := by rw [h.rb]; exact List.not_mem_nil
  have hn : (1 : Fin 2) ∈ d.rhsNonContracting := by rw [h.rn]; exact List.mem_singleton.mpr rfl
  unfold DotDims.rhsIdx
  rw [dif_neg hb, dif_pos hn]
  simp only [Fin.val_cast]
  exact coord_congr j _ _ _ _ (by simp [h.lb, h.ln, h.rn])

theorem contr_rank (h : IsPlain d) : d.contr.rank = 1 := by rw [d.rank_contr, h.lc]; rfl

theorem contr_size (h : IsPlain d) : d.contr.size ⟨0, by rw [contr_rank h]; exact Nat.one_pos⟩ = K := by
  rw [d.size_contr 0 (by rw [h.lc]; exact Nat.one_pos)]
  simp [h.lc]

/-- The contraction sum at the entry `(p, q)`, over the one contracted coordinate. -/
theorem sum_contr (h : IsPlain d) (l : (⟨2, ![R, K]⟩ : Shape).Idx → EReal) (r : (⟨2, ![K, N]⟩ : Shape).Idx → EReal)
    (p : Fin R) (q : Fin N) :
    ∑ k : d.contr.Idx, l (d.lhsIdx (ix2 p q) k) * r (d.rhsIdx (ix2 p q) k) = ∑ k : Fin K, l (ix2 p k) * r (ix2 k q) := by
  rw [← Equiv.sum_comp (contrEquiv1 d K (contr_rank h) (contr_size h)).symm]
  refine Finset.sum_congr rfl fun k _ => ?_
  have hl : d.lhsIdx (ix2 p q) ((contrEquiv1 d K (contr_rank h) (contr_size h)).symm k) = ix2 p k := by
    funext a
    refine Fin.ext ?_
    match a with
    | ⟨0, _⟩ => exact lhs_row h _ _
    | ⟨1, _⟩ => exact (lhs_col h _ _).trans (contrEquiv1_symm_val d K (contr_rank h) (contr_size h) k)
  have hr : d.rhsIdx (ix2 p q) ((contrEquiv1 d K (contr_rank h) (contr_size h)).symm k) = ix2 k q := by
    funext a
    refine Fin.ext ?_
    match a with
    | ⟨0, _⟩ => exact (rhs_row h _ _).trans (contrEquiv1_symm_val d K (contr_rank h) (contr_size h) k)
    | ⟨1, _⟩ => exact rhs_col h _ _
  rw [hl, hr]

/-- A kernel's matrix product into the zero accumulator, at the ideal values, read at `(p, q)`. -/
theorem matmul_zero_apply (h : IsPlain d) (prec : Option ContractPrecision)
    (l : FVec Ideal (⟨2, ![R, K]⟩ : Shape) .f32) (r : FVec Ideal (⟨2, ![K, N]⟩ : Shape) .f32) (p : Fin R) (q : Fin N) :
    FloatOps.matmul d prec l r (constant (⟨2, ![R, N]⟩ : Shape) .f32 0x00000000#32) (ix2 p q)
      = ∑ k : Fin K, l (ix2 p k) * r (ix2 k q) :=
  (Ideal.matmul_constant_zero_apply d prec l r (ix2 p q)).trans (sum_contr h l r p q)

/-- A host's general dot product, at the ideal values, read at `(p, q)`. -/
theorem dotGeneral_apply (h : IsPlain d) (prec : Option ContractPrecision) (sched : HostSchedule)
    (l : FVec Ideal (⟨2, ![R, K]⟩ : Shape) .f32) (r : FVec Ideal (⟨2, ![K, N]⟩ : Shape) .f32) (p : Fin R) (q : Fin N) :
    FloatOps.dotGeneral d prec sched l r (ix2 p q) = ∑ k : Fin K, l (ix2 p k) * r (ix2 k q) :=
  (Ideal.dotGeneral_apply d prec sched l r (ix2 p q)).trans (sum_contr h l r p q)

end Idealize.ShloMosaic.PlainDot
-- ==== Proof.RowMath.lean ====
/-
  The row-wise mathematics both programs compute, on the extended reals.

  One output row depends on one row `a` of the adjacency matrix, on the whole feature matrix `x`, on the row's own
  features `xr`, and on the weights. With `deg = (Σ a) + 1` and `neigh j = (Σ_k a k · x k j) / deg`, the hidden row is
  `max (Σ_k xr k · wx k n + Σ_k neigh k · wn k n) 0`; three dense layers follow, each `leaky (Σ_k h k · w k n + b n)`
  with `leaky v = v` when `v ≥ 0` and `slope · v` otherwise; the result is the row's exponentials about its maximum,
  divided by their sum. The float literals stay as the values of their words: the same word stands on both
  sides, so it is never evaluated.
-/
import Idealize.ShloMosaic.PureOps.Ideal.Laws
import Idealize.ShloMosaic.Lib.ValueIdx

open scoped BigOperators

noncomputable section

namespace Cert.RowMath

open Idealize.ShloMosaic Idealize.ShloMosaic.ValueIdx

/-- The leaky rectifier: `v` where `v ≥ 0`, the slope word's value times `v` elsewhere. -/
def leaky (v : EReal) : EReal :=
  Scalar.select (FloatOps.cmpf (F := Ideal) (φ := .f32) .oge v (Ideal.ofBits .f32 0x00000000#32)) v
    (Ideal.ofBits .f32 0x3C23D70A#32 * v)

/-- A row's degree: the sum of its adjacency entries, plus one. -/
def deg (a : Fin 8192 → EReal) : EReal := (∑ k, a k) + Ideal.ofBits .f32 0x3F800000#32

/-- The neighbour features of a row: the adjacency row times the feature matrix, over the degree. -/
def neigh (a : Fin 8192 → EReal) (x : Fin 8192 → Fin 128 → EReal) (j : Fin 128) : EReal :=
  Ideal.div (∑ k, a k * x k j) (deg a)

/-- The hidden row: own features through `wx` plus neighbour features through `wn`, rectified at zero. -/
def hidden (xr ng : Fin 128 → EReal) (wx wn : Fin 128 → Fin 256 → EReal) (n : Fin 256) : EReal :=
  max ((∑ k, xr k * wx k n) + (∑ k, ng k * wn k n)) (Ideal.ofBits .f32 0x00000000#32)

/-- A dense layer with bias, then the leaky rectifier. -/
def layer {K N : ℕ} (h : Fin K → EReal) (w : Fin K → Fin N → EReal) (b : Fin N → EReal) (n : Fin N) : EReal :=
  leaky ((∑ k, h k * w k n) + b n)

/-- A row's maximum, folded from the value of the `-∞` word. -/
def rowMax {C : ℕ} (h : Fin C → EReal) : EReal := (Finset.univ : Finset (Fin C)).fold max (Ideal.ofBits .f32 0xFF800000#32) h

/-- The normalised exponentials of a row about its maximum. -/
def smax {C : ℕ} (h : Fin C → EReal) (j : Fin C) : EReal :=
  Ideal.div (Ideal.exp (h j - rowMax h)) (∑ k, Ideal.exp (h k - rowMax h))

/-- One output row, as a function of the adjacency row, the features and the weights (weights indexed input first). -/
def outRow (a : Fin 8192 → EReal) (x : Fin 8192 → Fin 128 → EReal) (xr : Fin 128 → EReal)
    (wx wn : Fin 128 → Fin 256 → EReal) (w1 : Fin 256 → Fin 256 → EReal) (b1 : Fin 256 → EReal)
    (w2 : Fin 256 → Fin 128 → EReal) (b2 : Fin 128 → EReal) (w3 : Fin 128 → Fin 64 → EReal) (b3 : Fin 64 → EReal) :
    Fin 64 → EReal :=
  smax (layer (layer (layer (hidden xr (neigh a x) wx wn) w1 b1) w2 b2) w3 b3)

/-! ## The two halves of the combined weight's input axis -/

/-- Input `k` of the first half (own features). -/
def lo (k : Fin 128) : Fin 256 := ⟨k.val, by omega⟩
/-- Input `k` of the second half (neighbour features). -/
def hi (k : Fin 128) : Fin 256 := ⟨128 + k.val, by omega⟩

/-- A sum over the 256 inputs is the sum over the first half plus the sum over the second: only commutativity and
    associativity of the extended reals' addition, so it holds at the infinities too. -/
theorem sum_split (f : Fin 256 → EReal) : ∑ k, f k = (∑ k : Fin 128, f (lo k)) + ∑ k : Fin 128, f (hi k) :=
  Fin.sum_univ_add (a := 128) (b := 128) (f : Fin (128 + 128) → EReal)

/-! ## The whole result array -/

/-- Row `r`, column `j` of the result, from the nine argument arrays as the programs hold them: weights stored
    output index first, the combined first weight's input axis holding own features then neighbour features. -/
def outAt (x : (⟨2, ![8192, 128]⟩ : Shape).Idx → EReal) (adj : (⟨2, ![8192, 8192]⟩ : Shape).Idx → EReal)
    (ws : (⟨2, ![256, 256]⟩ : Shape).Idx → EReal) (w1 : (⟨2, ![256, 256]⟩ : Shape).Idx → EReal)
    (b1 : (⟨1, ![256]⟩ : Shape).Idx → EReal) (w2 : (⟨2, ![128, 256]⟩ : Shape).Idx → EReal)
    (b2 : (⟨1, ![128]⟩ : Shape).Idx → EReal) (w3 : (⟨2, ![64, 128]⟩ : Shape).Idx → EReal)
    (b3 : (⟨1, ![64]⟩ : Shape).Idx → EReal) (r : Fin 8192) (j : Fin 64) : EReal :=
  outRow (fun k => adj (ix2 r k)) (fun k j => x (ix2 k j)) (fun k => x (ix2 r k))
    (fun k n => ws (ix2 n (lo k))) (fun k n => ws (ix2 n (hi k))) (fun k n => w1 (ix2 n k)) (fun n => b1 (ix1 n))
    (fun k n => w2 (ix2 n k)) (fun n => b2 (ix1 n)) (fun k n => w3 (ix2 n k)) (fun n => b3 (ix1 n)) j

/-- The whole result array: `outAt` at each index's coordinates. -/
def outArr (x : (⟨2, ![8192, 128]⟩ : Shape).Idx → EReal) (adj : (⟨2, ![8192, 8192]⟩ : Shape).Idx → EReal)
    (ws : (⟨2, ![256, 256]⟩ : Shape).Idx → EReal) (w1 : (⟨2, ![256, 256]⟩ : Shape).Idx → EReal)
    (b1 : (⟨1, ![256]⟩ : Shape).Idx → EReal) (w2 : (⟨2, ![128, 256]⟩ : Shape).Idx → EReal)
    (b2 : (⟨1, ![128]⟩ : Shape).Idx → EReal) (w3 : (⟨2, ![64, 128]⟩ : Shape).Idx → EReal)
    (b3 : (⟨1, ![64]⟩ : Shape).Idx → EReal) : (⟨2, ![8192, 64]⟩ : Shape).Idx → EReal :=
  fun i => outAt x adj ws w1 b1 w2 b2 w3 b3 (i 0) (i 1)

end Cert.RowMath

end
-- ==== Proof.KernelStages.lean ====
/-
  The kernel body's three kinds of stage, as the kernel spells them, each read at an entry at the ideal values.

  A dense stage is a matrix product into the zero accumulator, a bias row spread over the rows, and the leaky
  rectifier; the last stage is the row's maximum and sum taken along the lanes, kept as columns and spread back;
  the first stage sums an adjacency block along its rows, divides the block's product with the features by that
  sum plus one, and adds the products of own and neighbour features with their weights. Each is general in the
  number of rows, and reads at `(p, n)` as the row function of `RowMath` of row `p` of its operands.
-/
import proofs.«132084_g18940805775915_cont_8to1_958_17_alg».proof.Proof.LibColumn
import proofs.«132084_g18940805775915_cont_8to1_958_17_alg».proof.Proof.LibPlainDot
import proofs.«132084_g18940805775915_cont_8to1_958_17_alg».proof.Proof.RowMath
import Idealize.ShloMosaic.Lib.ValueLayout

open scoped BigOperators

noncomputable section

namespace Cert.KernelStages

open Idealize.ShloMosaic Idealize.ShloMosaic.ValueIdx Idealize.ShloMosaic.ValueLayout

variable {F : FTy → Type} [FloatOps F]

/-! ## The stages, for any float values -/

/-- The leaky rectifier on a vector, as the kernel spells it: a comparison with the zero splat selects between
    the value and the slope splat times it. -/
def leakyV {s : Shape} (v : FVec F s .f32) : FVec F s .f32 :=
  select (cmpf .oge v (broadcast s (Scalar.ofBits .f32 0x00000000#32))) v
    (mulf (broadcast s (Scalar.ofBits .f32 0x3C23D70A#32)) v)

/-- A dense stage: `h · w` into the zero accumulator, plus the bias row spread over the rows, then the rectifier. -/
def dense {R K N : ℕ} (d : DotDims (⟨2, ![R, K]⟩ : Shape) (⟨2, ![K, N]⟩ : Shape) (⟨2, ![R, N]⟩ : Shape))
    (hw : (⟨2, ![K, N]⟩ : Shape).ShapeCasts ⟨2, ![K, N]⟩) (hb : (⟨2, ![1, N]⟩ : Shape).ShapeCasts ⟨2, ![1, N]⟩)
    (hbc : (⟨2, ![1, N]⟩ : Shape).Broadcasts ⟨2, ![R, N]⟩)
    (h : FVec F (⟨2, ![R, K]⟩ : Shape) .f32) (w : FVec F (⟨2, ![K, N]⟩ : Shape) .f32)
    (b : FVec F (⟨2, ![1, N]⟩ : Shape) .f32) : FVec F (⟨2, ![R, N]⟩ : Shape) .f32 :=
  leakyV (addf (matmul d none h (shapeCast ⟨2, ![K, N]⟩ w hw) (constant ⟨2, ![R, N]⟩ .f32 0x00000000#32))
    (broadcastTo ⟨2, ![R, N]⟩ (shapeCast ⟨2, ![1, N]⟩ b hb) hbc))

/-- The last stage: each row's exponentials about the row's maximum, over their sum. -/
def softmaxV {R C : ℕ} (hred : (⟨2, ![R, C]⟩ : Shape).Reduces [1] ⟨1, ![R]⟩)
    (hsc : (⟨1, ![R]⟩ : Shape).ShapeCasts ⟨2, ![R, 1]⟩) (hbc : (⟨2, ![R, 1]⟩ : Shape).Broadcasts ⟨2, ![R, C]⟩)
    (v : FVec F (⟨2, ![R, C]⟩ : Shape) .f32) : FVec F (⟨2, ![R, C]⟩ : Shape) .f32 :=
  have e : FVec F (⟨2, ![R, C]⟩ : Shape) .f32 :=
    exp (subf v (broadcastTo ⟨2, ![R, C]⟩ (shapeCast ⟨2, ![R, 1]⟩
      (multiReduction .maximumf [1] ⟨1, ![R]⟩ v 0xFF800000#32 hred (.inl rfl) rfl) hsc) hbc))
  divf e (broadcastTo ⟨2, ![R, C]⟩ (shapeCast ⟨2, ![R, 1]⟩
    (multiReduction .add [1] ⟨1, ![R]⟩ e 0x00000000#32 hred (.inl rfl) rfl) hsc) hbc)

/-- The first stage: the block's row sums plus one divide its product with the features; own and neighbour
    features go through their weights, are added and rectified at zero. -/
def sage {R : ℕ} (dA : DotDims (⟨2, ![R, 8192]⟩ : Shape) (⟨2, ![8192, 128]⟩ : Shape) (⟨2, ![R, 128]⟩ : Shape))
    (dX : DotDims (⟨2, ![R, 128]⟩ : Shape) (⟨2, ![128, 256]⟩ : Shape) (⟨2, ![R, 256]⟩ : Shape))
    (hred : (⟨2, ![R, 8192]⟩ : Shape).Reduces [1] ⟨1, ![R]⟩)
    (hsc : (⟨1, ![R]⟩ : Shape).ShapeCasts ⟨2, ![R, 1]⟩) (hbc : (⟨2, ![R, 1]⟩ : Shape).Broadcasts ⟨2, ![R, 128]⟩)
    (hw : (⟨2, ![128, 256]⟩ : Shape).ShapeCasts ⟨2, ![128, 256]⟩)
    (a : FVec F (⟨2, ![R, 8192]⟩ : Shape) .f32) (x : FVec F (⟨2, ![8192, 128]⟩ : Shape) .f32)
    (xr : FVec F (⟨2, ![R, 128]⟩ : Shape) .f32) (wx wn : FVec F (⟨2, ![128, 256]⟩ : Shape) .f32) :
    FVec F (⟨2, ![R, 256]⟩ : Shape) .f32 :=
  have dg : FVec F (⟨2, ![R, 1]⟩ : Shape) .f32 :=
    addf (shapeCast ⟨2, ![R, 1]⟩ (multiReduction .add [1] ⟨1, ![R]⟩ a 0x00000000#32 hred (.inl rfl) rfl) hsc)
      (broadcast ⟨2, ![R, 1]⟩ (Scalar.ofBits .f32 0x3F800000#32))
  have ng : FVec F (⟨2, ![R, 128]⟩ : Shape) .f32 :=
    divf (matmul dA none a x (constant ⟨2, ![R, 128]⟩ .f32 0x00000000#32)) (broadcastTo ⟨2, ![R, 128]⟩ dg hbc)
  maximumf (addf (matmul dX none xr (shapeCast ⟨2, ![128, 256]⟩ wx hw) (constant ⟨2, ![R, 256]⟩ .f32 0x00000000#32))
      (matmul dX none ng (shapeCast ⟨2, ![128, 256]⟩ wn hw) (constant ⟨2, ![R, 256]⟩ .f32 0x00000000#32)))
    (broadcast ⟨2, ![R, 256]⟩ (Scalar.ofBits .f32 0x00000000#32))

/-! ## Read at an entry, at the ideal values -/

/-- The rectifier on a vector is the rectifier of each entry. -/
theorem leakyV_apply {s : Shape} (v : FVec Ideal s .f32) (i : s.Idx) : leakyV v i = RowMath.leaky (v i) := rfl

/-- Inserting the lane coordinate `k` into the row index `p` gives the entry `(p, k)`. -/
theorem lift_row {R C : ℕ} (hred : (⟨2, ![R, C]⟩ : Shape).Reduces [1] ⟨1, ![R]⟩) (p : Fin R) (k : Fin C) :
    hred.lift (ix1 p) k = ix2 p k := by
  funext a
  match a with
  | ⟨0, _⟩ => rfl
  | ⟨1, _⟩ => rfl

/-- A sum along the lanes, at row `p`. -/
theorem laneSum_apply {R C : ℕ} (hred : (⟨2, ![R, C]⟩ : Shape).Reduces [1] ⟨1, ![R]⟩)
    (v : FVec Ideal (⟨2, ![R, C]⟩ : Shape) .f32) (p : Fin R) :
    multiReduction .add [1] ⟨1, ![R]⟩ v 0x00000000#32 hred (.inl rfl) rfl (ix1 p) = ∑ k : Fin C, v (ix2 p k) := by
  refine (Ideal.multiReduction_add_single v 0x00000000#32 hred (.inl rfl) rfl (ix1 p)).trans ?_
  exact Finset.sum_congr rfl fun k _ => congrArg v (lift_row hred p k)

/-- A maximum along the lanes, at row `p`. -/
theorem laneMax_apply {R C : ℕ} (hred : (⟨2, ![R, C]⟩ : Shape).Reduces [1] ⟨1, ![R]⟩)
    (v : FVec Ideal (⟨2, ![R, C]⟩ : Shape) .f32) (p : Fin R) :
    multiReduction .maximumf [1] ⟨1, ![R]⟩ v 0xFF800000#32 hred (.inl rfl) rfl (ix1 p)
      = RowMath.rowMax fun k : Fin C => v (ix2 p k) := by
  refine (Ideal.multiReduction_maximumf_single v 0xFF800000#32 hred (.inl rfl) rfl (ix1 p)).trans ?_
  unfold RowMath.rowMax
  exact congrArg (Finset.fold max _ · _) (funext fun k => congrArg v (lift_row hred p k))

/-- A dense stage at `(p, n)` is the dense row function of row `p`. -/
theorem dense_apply {R K N : ℕ} {d : DotDims (⟨2, ![R, K]⟩ : Shape) (⟨2, ![K, N]⟩ : Shape) (⟨2, ![R, N]⟩ : Shape)}
    (hd : PlainDot.IsPlain d) (hw : (⟨2, ![K, N]⟩ : Shape).ShapeCasts ⟨2, ![K, N]⟩)
    (hb : (⟨2, ![1, N]⟩ : Shape).ShapeCasts ⟨2, ![1, N]⟩) (hbc : (⟨2, ![1, N]⟩ : Shape).Broadcasts ⟨2, ![R, N]⟩)
    (h : FVec Ideal (⟨2, ![R, K]⟩ : Shape) .f32) (w : FVec Ideal (⟨2, ![K, N]⟩ : Shape) .f32)
    (b : FVec Ideal (⟨2, ![1, N]⟩ : Shape) .f32) (p : Fin R) (n : Fin N) :
    dense d hw hb hbc h w b (ix2 p n)
      = RowMath.layer (fun k => h (ix2 p k)) (fun k n => w (ix2 k n)) (fun n => b (ix2 (0 : Fin 1) n)) n := by
  unfold dense RowMath.layer
  rw [leakyV_apply, shapeCast_self, shapeCast_self]
  refine congrArg RowMath.leaky ?_
  show FloatOps.matmul d none h w (constant ⟨2, ![R, N]⟩ .f32 0x00000000#32) (ix2 p n)
      + broadcastTo ⟨2, ![R, N]⟩ b hbc (ix2 p n) = _
  rw [PlainDot.matmul_zero_apply hd, broadcastTo_1b_ab_apply]

/-- The last stage at `(p, j)` is the normalised exponentials of row `p`. -/
theorem softmaxV_apply {R C : ℕ} (hR : R ≠ 1) (hred : (⟨2, ![R, C]⟩ : Shape).Reduces [1] ⟨1, ![R]⟩)
    (hsc : (⟨1, ![R]⟩ : Shape).ShapeCasts ⟨2, ![R, 1]⟩) (hbc : (⟨2, ![R, 1]⟩ : Shape).Broadcasts ⟨2, ![R, C]⟩)
    (v : FVec Ideal (⟨2, ![R, C]⟩ : Shape) .f32) (p : Fin R) (j : Fin C) :
    softmaxV hred hsc hbc v (ix2 p j) = RowMath.smax (fun k => v (ix2 p k)) j := by
  have he : ∀ k : Fin C,
      exp (subf v (broadcastTo ⟨2, ![R, C]⟩ (shapeCast ⟨2, ![R, 1]⟩
        (multiReduction .maximumf [1] ⟨1, ![R]⟩ v 0xFF800000#32 hred (.inl rfl) rfl) hsc) hbc)) (ix2 p k)
        = Ideal.exp (v (ix2 p k) - RowMath.rowMax fun k : Fin C => v (ix2 p k)) := by
    intro k
    show Ideal.exp (v (ix2 p k) - broadcastTo ⟨2, ![R, C]⟩ _ hbc (ix2 p k)) = _
    rw [broadcastTo_a1_ab_apply hR, shapeCast_a_a1_apply, laneMax_apply]
  unfold softmaxV RowMath.smax
  show Ideal.div (exp (F := Ideal) (s := (⟨2, ![R, C]⟩ : Shape)) (φ := .f32) _ (ix2 p j))
    (broadcastTo ⟨2, ![R, C]⟩ _ hbc (ix2 p j)) = _
  rw [broadcastTo_a1_ab_apply hR, shapeCast_a_a1_apply, laneSum_apply, he j]
  exact congrArg (Ideal.div _) (Finset.sum_congr rfl fun k _ => he k)

/-- The first stage at `(p, n)` is the hidden row function of row `p`. -/
theorem sage_apply {R : ℕ} (hR : R ≠ 1)
    {dA : DotDims (⟨2, ![R, 8192]⟩ : Shape) (⟨2, ![8192, 128]⟩ : Shape) (⟨2, ![R, 128]⟩ : Shape)}
    {dX : DotDims (⟨2, ![R, 128]⟩ : Shape) (⟨2, ![128, 256]⟩ : Shape) (⟨2, ![R, 256]⟩ : Shape)}
    (hdA : PlainDot.IsPlain dA) (hdX : PlainDot.IsPlain dX)
    (hred : (⟨2, ![R, 8192]⟩ : Shape).Reduces [1] ⟨1, ![R]⟩)
    (hsc : (⟨1, ![R]⟩ : Shape).ShapeCasts ⟨2, ![R, 1]⟩) (hbc : (⟨2, ![R, 1]⟩ : Shape).Broadcasts ⟨2, ![R, 128]⟩)
    (hw : (⟨2, ![128, 256]⟩ : Shape).ShapeCasts ⟨2, ![128, 256]⟩)
    (a : FVec Ideal (⟨2, ![R, 8192]⟩ : Shape) .f32) (x : FVec Ideal (⟨2, ![8192, 128]⟩ : Shape) .f32)
    (xr : FVec Ideal (⟨2, ![R, 128]⟩ : Shape) .f32) (wx wn : FVec Ideal (⟨2, ![128, 256]⟩ : Shape) .f32)
    (p : Fin R) (n : Fin 256) :
    sage dA dX hred hsc hbc hw a x xr wx wn (ix2 p n)
      = RowMath.hidden (fun k => xr (ix2 p k))
          (RowMath.neigh (fun k => a (ix2 p k)) (fun k j => x (ix2 k j)))
          (fun k n => wx (ix2 k n)) (fun k n => wn (ix2 k n)) n := by
  have hng : ∀ j : Fin 128,
      divf (matmul dA none a x (constant ⟨2, ![R, 128]⟩ .f32 0x00000000#32))
        (broadcastTo ⟨2, ![R, 128]⟩
          (addf (shapeCast ⟨2, ![R, 1]⟩ (multiReduction .add [1] ⟨1, ![R]⟩ a 0x00000000#32 hred (.inl rfl) rfl) hsc)
            (broadcast ⟨2, ![R, 1]⟩ (Scalar.ofBits .f32 0x3F800000#32))) hbc) (ix2 p j)
        = RowMath.neigh (fun k => a (ix2 p k)) (fun k j => x (ix2 k j)) j := by
    intro j
    unfold RowMath.neigh RowMath.deg
    show Ideal.div (FloatOps.matmul dA none a x (constant ⟨2, ![R, 128]⟩ .f32 0x00000000#32) (ix2 p j))
      (broadcastTo ⟨2, ![R, 128]⟩ _ hbc (ix2 p j)) = _
    rw [PlainDot.matmul_zero_apply hdA, broadcastTo_a1_ab_apply hR]
    show Ideal.div _ (shapeCast ⟨2, ![R, 1]⟩ _ hsc (ix2 p (0 : Fin 1)) + Ideal.ofBits .f32 0x3F800000#32) = _
    rw [shapeCast_a_a1_apply, laneSum_apply]
  unfold sage RowMath.hidden
  rw [shapeCast_self, shapeCast_self]
  show max (FloatOps.matmul dX none xr wx (constant ⟨2, ![R, 256]⟩ .f32 0x00000000#32) (ix2 p n)
      + FloatOps.matmul dX none _ wn (constant ⟨2, ![R, 256]⟩ .f32 0x00000000#32) (ix2 p n))
    (Ideal.ofBits .f32 0x00000000#32) = _
  rw [PlainDot.matmul_zero_apply hdX, PlainDot.matmul_zero_apply hdX]
  exact congrArg (max · _) (congrArg (_ + ·) (Finset.sum_congr rfl fun k _ => congrArg (· * _) (hng k)))

end Cert.KernelStages

end
-- ==== Proof.KernelBlock.lean ====
/-
  What one grid point's body computes, at an entry: the kernel's two payloads are the stages of `KernelStages`
  composed, so the stored block at `(p, j)` is the output row function of row `p` of the loaded operands — the
  adjacency block's row `p`, the whole feature matrix, the block of own features' row `p`, and the weights as
  loaded (input index first) with the bias rows' one row.
-/
import proofs.«132084_g18940805775915_cont_8to1_958_17_alg».proof.Proof.Gen.KernelIdeal.Skeleton
import proofs.«132084_g18940805775915_cont_8to1_958_17_alg».proof.Proof.KernelStages

open scoped BigOperators

noncomputable section

namespace Cert.KernelIdeal.Block

open Cert.KernelIdeal Cert.KernelIdeal.Gen Idealize.ShloMosaic Idealize.ShloMosaic.ValueIdx Cert.KernelStages

variable {F : FTy → Type} [FloatOps F]

/-! ## The printed dimension numbers are the plain ones -/

theorem plain_adj : PlainDot.IsPlain dot_S512x8192_S8192x128_S512x128_1_0_0_1_n_n := ⟨rfl, rfl, rfl, rfl, rfl, rfl⟩
theorem plain_sage : PlainDot.IsPlain dot_S512x128_S128x256_S512x256_1_0_0_1_n_n := ⟨rfl, rfl, rfl, rfl, rfl, rfl⟩
theorem plain_l1 : PlainDot.IsPlain dot_S512x256_S256x256_S512x256_1_0_0_1_n_n := ⟨rfl, rfl, rfl, rfl, rfl, rfl⟩
theorem plain_l2 : PlainDot.IsPlain dot_S512x256_S256x128_S512x128_1_0_0_1_n_n := ⟨rfl, rfl, rfl, rfl, rfl, rfl⟩
theorem plain_l3 : PlainDot.IsPlain dot_S512x128_S128x64_S512x64_1_0_0_1_n_n := ⟨rfl, rfl, rfl, rfl, rfl, rfl⟩

/-! ## The payloads are the stages composed -/

/-- The first payload: the first stage, then the first dense stage. -/
theorem pay2_eq (v0 : Vec F S512x8192 .f32) (v5 : Vec F S8192x128 .f32) (v11 : Vec F S512x128 .f32)
    (v12 v15 : Vec F S128x256 .f32) (v21 : Vec F S256x256 .f32) (v24 : Vec F S1x256 .f32) :
    k0_pay2 v0 v5 v11 v12 v15 v21 v24
      = dense dot_S512x256_S256x256_S512x256_1_0_0_1_n_n shapeCasts_S256x256_S256x256 shapeCasts_S1x256_S1x256
          broadcasts_S1x256_S512x256
          (sage dot_S512x8192_S8192x128_S512x128_1_0_0_1_n_n dot_S512x128_S128x256_S512x256_1_0_0_1_n_n
            reduces_S512x8192_S512 shapeCasts_S512_S512x1 broadcasts_S512x1_S512x128 shapeCasts_S128x256_S128x256
            v0 v5 v11 v12 v15) v21 v24 := rfl

/-- The second payload: two dense stages, then the last stage. -/
theorem pay1_eq (v32 : FVec F S512x256 .f32) (v33 : Vec F S256x128 .f32) (v36 : Vec F S1x128 .f32)
    (v45 : Vec F S128x64 .f32) (v48 : Vec F S1x64 .f32) :
    k0_pay1 v32 v33 v36 v45 v48
      = softmaxV reduces_S512x64_S512 shapeCasts_S512_S512x1 broadcasts_S512x1_S512x64
          (dense dot_S512x128_S128x64_S512x64_1_0_0_1_n_n shapeCasts_S128x64_S128x64 shapeCasts_S1x64_S1x64
            broadcasts_S1x64_S512x64
            (dense dot_S512x256_S256x128_S512x128_1_0_0_1_n_n shapeCasts_S256x128_S256x128 shapeCasts_S1x128_S1x128
              broadcasts_S1x128_S512x128 v32 v33 v36) v45 v48) := rfl

/-! ## The stored block at an entry -/

/-- The block a grid point stores, at `(p, j)`: the output row function of row `p` of what the body loaded. -/
theorem block_apply (a : Vec Ideal S512x8192 .f32) (x : Vec Ideal S8192x128 .f32) (xr : Vec Ideal S512x128 .f32)
    (wx wn : Vec Ideal S128x256 .f32) (w1 : Vec Ideal S256x256 .f32) (b1 : Vec Ideal S1x256 .f32)
    (w2 : Vec Ideal S256x128 .f32) (b2 : Vec Ideal S1x128 .f32) (w3 : Vec Ideal S128x64 .f32) (b3 : Vec Ideal S1x64 .f32)
    (p : Fin 512) (j : Fin 64) :
    k0_pay1 (F := Ideal) (k0_pay2 (F := Ideal) a x xr wx wn w1 b1) w2 b2 w3 b3 (ix2 p j)
      = RowMath.outRow (fun k => a (ix2 p k)) (fun k j => x (ix2 k j)) (fun k => xr (ix2 p k))
          (fun k n => wx (ix2 k n)) (fun k n => wn (ix2 k n)) (fun k n => w1 (ix2 k n)) (fun n => b1 (ix2 (0 : Fin 1) n))
          (fun k n => w2 (ix2 k n)) (fun n => b2 (ix2 (0 : Fin 1) n)) (fun k n => w3 (ix2 k n))
          (fun n => b3 (ix2 (0 : Fin 1) n)) j := by
  rw [pay1_eq, pay2_eq]
  unfold RowMath.outRow
  rw [softmaxV_apply (by decide)]
  refine congrArg (RowMath.smax · j) (funext fun n3 => ?_)
  rw [dense_apply plain_l3]
  refine congrArg (RowMath.layer · _ _ n3) (funext fun n2 => ?_)
  rw [dense_apply plain_l2]
  refine congrArg (RowMath.layer · _ _ n2) (funext fun n1 => ?_)
  rw [dense_apply plain_l1]
  refine congrArg (RowMath.layer · _ _ n1) (funext fun n0 => ?_)
  exact sage_apply (by decide) plain_adj plain_sage _ _ _ _ a x xr wx wn p n0

end Cert.KernelIdeal.Block

end
-- ==== Proof.KernelArray.lean ====
/-
  From one grid point's block to the whole result array of the idealized kernel.

  Grid point `t` stages rows `512 t … 512 t + 511` of the adjacency matrix, the whole feature matrix and the
  weights (which @main transposed, and for the combined first weight cut into its two column halves, before the
  call); its body loads the same rows of the feature matrix at the offset `512 t`. So what the point writes back
  is rows `512 t … 512 t + 511` of ONE function of the argument arrays, `RowMath.outArr`; the sixteen points'
  blocks tile the `8192 × 64` result, which therefore ends at that function.
-/
import proofs.«132084_g18940805775915_cont_8to1_958_17_alg».proof.Proof.Gen.KernelIdeal.Value
import proofs.«132084_g18940805775915_cont_8to1_958_17_alg».proof.Proof.KernelBlock
import Idealize.ShloMosaic.Lib.Pipeline.Value
import Idealize.ShloMosaic.Lib.StableHlo.Run
import Idealize.ShloMosaic.Lib.Tactic
import Idealize.ShloMosaic.Lib.ValueLayout

open scoped BigOperators

noncomputable section

namespace Cert.KernelIdeal.Arr

open Cert.KernelIdeal Cert.KernelIdeal.Gen Idealize.ShloMosaic Idealize.ShloMosaic.TcCoe Idealize.SL.Sem
open Idealize.ShloMosaic.ValueIdx Idealize.ShloMosaic.ValueLayout
open Idealize.ShloMosaic.Pipeline (Dat)

/-! ## What the body's one store leaves, for any float values -/

section Piece

variable {F : FTy → Type} [FloatOps F]

theorem hz : (![0, 0] : Fin 2 → Nat) = fun _ => 0 := funext fun a => by fin_cases a <;> rfl

/-- The rows of the staged feature matrix the body loads at its own offset. -/
abbrev ownRows (i : grid0.Coords) (x1 : Vec F S8192x128 .f32) : Vec F S512x128 .f32 :=
  View.ld x1 (Rect.unit (s := S8192x128) (k0_off1 i) S512x128.size (k0_off1_inb i))

/-- The output's staging buffer after the body: the second payload of the first, over the staged blocks read whole
    and the feature matrix's own rows. -/
theorem out_A (c : Dev nD) (i : grid0.Coords) (arg1 : Memref sig .tc .vmem S512x8192 .f32) (harg1 : arg1.IsWhole) (arg2 : Memref sig .tc .vmem S8192x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S128x64 .f32) (harg9 : arg9.IsWhole) (arg10 : Memref sig .tc .vmem S1x64 .f32) (harg10 : arg10.IsWhole) (arg11 : Memref sig .tc .vmem S512x64 .f32) (harg11 : arg11.IsWhole)
    (x0 : Vec F S512x8192 .f32) (x1 : Vec F S8192x128 .f32) (x2 : Vec F S128x256 .f32) (x3 : Vec F S128x256 .f32) (x4 : Vec F S256x256 .f32) (x5 : Vec F S1x256 .f32) (x6 : Vec F S256x128 .f32) (x7 : Vec F S1x128 .f32) (x8 : Vec F S128x64 .f32) (x9 : Vec F S1x64 .f32) :
    out0_A_10 c i arg1 harg1 arg2 harg2 arg3 harg3 arg4 harg4 arg5 harg5 arg6 harg6 arg7 harg7 arg8 harg8 arg9 harg9 arg10 harg10 arg11 harg11 x0 x1 x2 x3 x4 x5 x6 x7 x8 x9
      = k0_pay1 (k0_pay2 x0 x1 (ownRows i x1) x2 x3 x4 x5) x6 x7 x8 x9 := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 x0 x1 x2 x3 x4 x5 x6 x7 x8 x9)]
  unfold kernelRun0_A
  dsimp only
  sl_unfold_words
  rw [View.canon_unit_zero hz]
  simp only [View.readAt_eq_ld, harg1.read_unread, harg2.read_unread, harg3.read_unread, harg4.read_unread,
    harg5.read_unread, harg6.read_unread, harg7.read_unread, harg8.read_unread, harg9.read_unread, harg10.read_unread,
    View.ld_unit_zero (S := S512x8192) hz, View.ld_unit_zero (S := S8192x128) hz, View.ld_unit_zero (S := S128x256) hz,
    View.ld_unit_zero (S := S256x256) hz, View.ld_unit_zero (S := S1x256) hz, View.ld_unit_zero (S := S256x128) hz,
    View.ld_unit_zero (S := S1x128) hz, View.ld_unit_zero (S := S128x64) hz, View.ld_unit_zero (S := S1x64) hz]
  rfl

/-- The own rows at `(p, k)`: the feature matrix at row `512 · (i 0) + p`. -/
theorem ownRows_apply (i : grid0.Coords) (x1 : Vec F S8192x128 .f32) (p : Fin 512) (k : Fin 128) (r : Fin 8192)
    (hr : r.val = 512 * (i 0).val + p.val) : ownRows i x1 (ix2 p k) = x1 (ix2 r k) := by
  show x1 ((Rect.unit (s := S8192x128) (k0_off1 i) S512x128.size (k0_off1_inb i)).emb (ix2 p k)) = _
  refine congrArg x1 (funext fun a => Fin.ext ?_)
  have h0 : k0_off1 i (0 : Fin 2) = 512 * (i 0).val := by rw [k0_off1_eq]; rfl
  have h1 : k0_off1 i (1 : Fin 2) = 0 := by rw [k0_off1_eq]; rfl
  match a with
  | ⟨0, _⟩ => show k0_off1 i (0 : Fin 2) + 1 * p.val = r.val; omega
  | ⟨1, _⟩ => show k0_off1 i (1 : Fin 2) + 1 * k.val = k.val; omega

end Piece

/-! ## At the ideal values: the arguments, the index maps, the host-prepared weights -/

section AtIdeal

variable (m : (ℓ : Loc nD τ sig) → Buf (Elt Ideal) ℓ) (ρ : Dev nD → PrngReg)

/-- The nine argument arrays as launched, by their literal types. -/
abbrev xArg (c : Dev nD) : Vec Ideal S8192x128 .f32 := m ((c : Thread nD τ).loc main_arg0)
abbrev adjArg (c : Dev nD) : Vec Ideal S8192x8192 .f32 := m ((c : Thread nD τ).loc main_arg1)
abbrev wsArg (c : Dev nD) : Vec Ideal S256x256 .f32 := m ((c : Thread nD τ).loc main_arg2)
abbrev w1Arg (c : Dev nD) : Vec Ideal S256x256 .f32 := m ((c : Thread nD τ).loc main_arg3)
abbrev b1Arg (c : Dev nD) : Vec Ideal S256 .f32 := m ((c : Thread nD τ).loc main_arg4)
abbrev w2Arg (c : Dev nD) : Vec Ideal S128x256 .f32 := m ((c : Thread nD τ).loc main_arg5)
abbrev b2Arg (c : Dev nD) : Vec Ideal S128 .f32 := m ((c : Thread nD τ).loc main_arg6)
abbrev w3Arg (c : Dev nD) : Vec Ideal S64x128 .f32 := m ((c : Thread nD τ).loc main_arg7)
abbrev b3Arg (c : Dev nD) : Vec Ideal S64 .f32 := m ((c : Thread nD τ).loc main_arg8)

/-- The function of the arguments the result array ends at. -/
abbrev G (c : Dev nD) : Vec Ideal S8192x64 .f32 :=
  RowMath.outArr (xArg m c) (adjArg m c) (wsArg m c) (w1Arg m c) (b1Arg m c) (w2Arg m c) (b2Arg m c) (w3Arg m c) (b3Arg m c)

/-- The printed index maps, decided over the sixteen points: the adjacency and the result move one block of rows
    per point, every other window stays at its one block; and the point's grid coordinate is its number. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = t.val ∧ win0_10.index t (1 : Fin 2) = 0
    ∧ (grid0.coords t (0 : Fin 1)).val = t.val :=
  (by decide +kernel : ∀ t : Fin grid0.N, _)

/-- A point's grid coordinate is its number. -/
theorem coord_fact : ∀ t : Fin cfg0.N, ((grid0.coords t) 0).val = t.val :=
  (by decide +kernel : ∀ t : Fin grid0.N, _)

/-- The first weight's own-features half as @main prepared it: the first 128 columns, transposed. -/
theorem wx_eq (c : Dev nD) : (V m c main_call0_v1 : Vec Ideal S128x256 .f32)
    = transpose S128x256 [1, 0] (extractStridedSlice S256x128 ![0, 0] (wsArg m c) slices_S256x256_S256x128_0_0)
        transposes_S256x128_S128x256_1_0 := by
  dsimp only [Gen.V, Gen.hostOps0]; after_results; rfl

/-- Its neighbour-features half: the last 128 columns, transposed. -/
theorem wn_eq (c : Dev nD) : (V m c main_call0_v3 : Vec Ideal S128x256 .f32)
    = transpose S128x256 [1, 0] (extractStridedSlice S256x128 ![0, 128] (wsArg m c) slices_S256x256_S256x128_0_128)
        transposes_S256x128_S128x256_1_0 := by
  dsimp only [Gen.V, Gen.hostOps0]; after_results; rfl

theorem w1_eq (c : Dev nD) : (V m c main_call0_v4 : Vec Ideal S256x256 .f32)
    = transpose S256x256 [1, 0] (w1Arg m c) transposes_S256x256_S256x256_1_0 := by
  dsimp only [Gen.V, Gen.hostOps0]; after_results; rfl

theorem w2_eq (c : Dev nD) : (V m c main_call0_v5 : Vec Ideal S256x128 .f32)
    = transpose S256x128 [1, 0] (w2Arg m c) transposes_S128x256_S256x128_1_0 := by
  dsimp only [Gen.V, Gen.hostOps0]; after_results; rfl

theorem w3_eq (c : Dev nD) : (V m c main_call0_v6 : Vec Ideal S128x64 .f32)
    = transpose S128x64 [1, 0] (w3Arg m c) transposes_S64x128_S128x64_1_0 := by
  dsimp only [Gen.V, Gen.hostOps0]; after_results; rfl

theorem b1_eq (c : Dev nD) : (V m c main_call0_v7 : Vec Ideal S1x256 .f32)
    = shapeCast S1x256 (b1Arg m c) shapeCasts_S256_S1x256 := by
  dsimp only [Gen.V, Gen.hostOps0]; after_results; rfl

theorem b2_eq (c : Dev nD) : (V m c main_call0_v8 : Vec Ideal S1x128 .f32)
    = shapeCast S1x128 (b2Arg m c) shapeCasts_S128_S1x128 := by
  dsimp only [Gen.V, Gen.hostOps0]; after_results; rfl

theorem b3_eq (c : Dev nD) : (V m c main_call0_v9 : Vec Ideal S1x64 .f32)
    = shapeCast S1x64 (b3Arg m c) shapeCasts_S64_S1x64 := by
  dsimp only [Gen.V, Gen.hostOps0]; after_results; rfl

/-! ## The staged blocks, read through their windows -/

abbrev blk0 (c : Dev nD) (t : Fin cfg0.N) : Vec Ideal S512x8192 .f32 := iblk m c 0 t
abbrev blk1 (c : Dev nD) (t : Fin cfg0.N) : Vec Ideal S8192x128 .f32 := iblk m c 1 t
abbrev blk2 (c : Dev nD) (t : Fin cfg0.N) : Vec Ideal S128x256 .f32 := iblk m c 2 t
abbrev blk3 (c : Dev nD) (t : Fin cfg0.N) : Vec Ideal S128x256 .f32 := iblk m c 3 t
abbrev blk4 (c : Dev nD) (t : Fin cfg0.N) : Vec Ideal S256x256 .f32 := iblk m c 4 t
abbrev blk5 (c : Dev nD) (t : Fin cfg0.N) : Vec Ideal S1x256 .f32 := iblk m c 5 t
abbrev blk6 (c : Dev nD) (t : Fin cfg0.N) : Vec Ideal S256x128 .f32 := iblk m c 6 t
abbrev blk7 (c : Dev nD) (t : Fin cfg0.N) : Vec Ideal S1x128 .f32 := iblk m c 7 t
abbrev blk8 (c : Dev nD) (t : Fin cfg0.N) : Vec Ideal S128x64 .f32 := iblk m c 8 t
abbrev blk9 (c : Dev nD) (t : Fin cfg0.N) : Vec Ideal S1x64 .f32 := iblk m c 9 t

/-- The arrays the windows stage, as the region finds them, by their literal types. -/
abbrev adjV (c : Dev nD) : Vec Ideal S8192x8192 .f32 := V m c main_arg1
abbrev xV (c : Dev nD) : Vec Ideal S8192x128 .f32 := V m c main_arg0
abbrev wxV (c : Dev nD) : Vec Ideal S128x256 .f32 := V m c main_call0_v1
abbrev wnV (c : Dev nD) : Vec Ideal S128x256 .f32 := V m c main_call0_v3
abbrev w1V (c : Dev nD) : Vec Ideal S256x256 .f32 := V m c main_call0_v4
abbrev b1V (c : Dev nD) : Vec Ideal S1x256 .f32 := V m c main_call0_v7
abbrev w2V (c : Dev nD) : Vec Ideal S256x128 .f32 := V m c main_call0_v5
abbrev b2V (c : Dev nD) : Vec Ideal S1x128 .f32 := V m c main_call0_v8
abbrev w3V (c : Dev nD) : Vec Ideal S128x64 .f32 := V m c main_call0_v6
abbrev b3V (c : Dev nD) : Vec Ideal S1x64 .f32 := V m c main_call0_v9

theorem adjV_eq (c : Dev nD) : adjV m c = adjArg m c := V_main_arg1 m c
theorem xV_eq (c : Dev nD) : xV m c = xArg m c := V_main_arg0 m c

/-- The adjacency block of point `t` at `(p, k)`: the adjacency matrix at row `512 t + p`. -/
theorem adj_blk (c : Dev nD) (t : Fin cfg0.N) (p : Fin 512) (k : Fin 8192) (r : Fin 8192)
    (hr : r.val = 512 * t.val + p.val) : blk0 m c t (ix2 p k) = adjArg m c (ix2 r k) := by
  have e := idx_facts t
  show adjV m c (((cfg0.win 0).blk t).view.emb (ix2 p k)) = _
  rw [adjV_eq]
  refine congrArg (adjArg m c) (funext fun a => Fin.ext ?_)
  match a with
  | ⟨0, _⟩ => show win0_0.index t (0 : Fin 2) * 512 + 1 * p.val = r.val; omega
  | ⟨1, _⟩ => show win0_0.index t (1 : Fin 2) * 8192 + 1 * k.val = k.val; omega

theorem x_blk (c : Dev nD) (t : Fin cfg0.N) : blk1 m c t = xV m c := by
  have e := idx_facts t
  funext y
  show xV m c (((cfg0.win 1).blk t).view.emb y) = xV m c y
  refine congrArg (xV m c) (funext fun a => Fin.ext ?_)
  match a with
  | ⟨0, _⟩ => show win0_1.index t (0 : Fin 2) * 8192 + 1 * (y 0).val = (y 0).val; omega
  | ⟨1, _⟩ => show win0_1.index t (1 : Fin 2) * 128 + 1 * (y 1).val = (y 1).val; omega

theorem wx_blk (c : Dev nD) (t : Fin cfg0.N) : blk2 m c t = wxV m c := by
  have e := idx_facts t
  funext y
  show wxV m c (((cfg0.win 2).blk t).view.emb y) = wxV m c y
  refine congrArg (wxV m c) (funext fun a => Fin.ext ?_)
  match a with
  | ⟨0, _⟩ => show win0_2.index t (0 : Fin 2) * 128 + 1 * (y 0).val = (y 0).val; omega
  | ⟨1, _⟩ => show win0_2.index t (1 : Fin 2) * 256 + 1 * (y 1).val = (y 1).val; omega

theorem wn_blk (c : Dev nD) (t : Fin cfg0.N) : blk3 m c t = wnV m c := by
  have e := idx_facts t
  funext y
  show wnV m c (((cfg0.win 3).blk t).view.emb y) = wnV m c y
  refine congrArg (wnV m c) (funext fun a => Fin.ext ?_)
  match a with
  | ⟨0, _⟩ => show win0_3.index t (0 : Fin 2) * 128 + 1 * (y 0).val = (y 0).val; omega
  | ⟨1, _⟩ => show win0_3.index t (1 : Fin 2) * 256 + 1 * (y 1).val = (y 1).val; omega

theorem w1_blk (c : Dev nD) (t : Fin cfg0.N) : blk4 m c t = w1V m c := by
  have e := idx_facts t
  funext y
  show w1V m c (((cfg0.win 4).blk t).view.emb y) = w1V m c y
  refine congrArg (w1V m c) (funext fun a => Fin.ext ?_)
  match a with
  | ⟨0, _⟩ => show win0_4.index t (0 : Fin 2) * 256 + 1 * (y 0).val = (y 0).val; omega
  | ⟨1, _⟩ => show win0_4.index t (1 : Fin 2) * 256 + 1 * (y 1).val = (y 1).val; omega

theorem b1_blk (c : Dev nD) (t : Fin cfg0.N) : blk5 m c t = b1V m c := by
  have e := idx_facts t
  funext y
  show b1V m c (((cfg0.win 5).blk t).view.emb y) = b1V m c y
  refine congrArg (b1V m c) (funext fun a => Fin.ext ?_)
  match a with
  | ⟨0, _⟩ => show win0_5.index t (0 : Fin 2) * 1 + 1 * (y 0).val = (y 0).val; omega
  | ⟨1, _⟩ => show win0_5.index t (1 : Fin 2) * 256 + 1 * (y 1).val = (y 1).val; omega

theorem w2_blk (c : Dev nD) (t : Fin cfg0.N) : blk6 m c t = w2V m c := by
  have e := idx_facts t
  funext y
  show w2V m c (((cfg0.win 6).blk t).view.emb y) = w2V m c y
  refine congrArg (w2V m c) (funext fun a => Fin.ext ?_)
  match a with
  | ⟨0, _⟩ => show win0_6.index t (0 : Fin 2) * 256 + 1 * (y 0).val = (y 0).val; omega
  | ⟨1, _⟩ => show win0_6.index t (1 : Fin 2) * 128 + 1 * (y 1).val = (y 1).val; omega

theorem b2_blk (c : Dev nD) (t : Fin cfg0.N) : blk7 m c t = b2V m c := by
  have e := idx_facts t
  funext y
  show b2V m c (((cfg0.win 7).blk t).view.emb y) = b2V m c y
  refine congrArg (b2V m c) (funext fun a => Fin.ext ?_)
  match a with
  | ⟨0, _⟩ => show win0_7.index t (0 : Fin 2) * 1 + 1 * (y 0).val = (y 0).val; omega
  | ⟨1, _⟩ => show win0_7.index t (1 : Fin 2) * 128 + 1 * (y 1).val = (y 1).val; omega

theorem w3_blk (c : Dev nD) (t : Fin cfg0.N) : blk8 m c t = w3V m c := by
  have e := idx_facts t
  funext y
  show w3V m c (((cfg0.win 8).blk t).view.emb y) = w3V m c y
  refine congrArg (w3V m c) (funext fun a => Fin.ext ?_)
  match a with
  | ⟨0, _⟩ => show win0_8.index t (0 : Fin 2) * 128 + 1 * (y 0).val = (y 0).val; omega
  | ⟨1, _⟩ => show win0_8.index t (1 : Fin 2) * 64 + 1 * (y 1).val = (y 1).val; omega

theorem b3_blk (c : Dev nD) (t : Fin cfg0.N) : blk9 m c t = b3V m c := by
  have e := idx_facts t
  funext y
  show b3V m c (((cfg0.win 9).blk t).view.emb y) = b3V m c y
  refine congrArg (b3V m c) (funext fun a => Fin.ext ?_)
  match a with
  | ⟨0, _⟩ => show win0_9.index t (0 : Fin 2) * 1 + 1 * (y 0).val = (y 0).val; omega
  | ⟨1, _⟩ => show win0_9.index t (1 : Fin 2) * 64 + 1 * (y 1).val = (y 1).val; omega

/-! ## The prepared weights at an entry -/

theorem wx_apply (c : Dev nD) (k : Fin 128) (n : Fin 256) : wxV m c (ix2 k n) = wsArg m c (ix2 n (RowMath.lo k)) := by
  show (V m c main_call0_v1 : Vec Ideal S128x256 .f32) (ix2 k n) = _
  rw [wx_eq, transpose_ix2_apply]
  exact slice2_axis1_apply 0 (wsArg m c) _ n k (RowMath.lo k) (by show k.val = 0 + k.val; omega)

theorem wn_apply (c : Dev nD) (k : Fin 128) (n : Fin 256) : wnV m c (ix2 k n) = wsArg m c (ix2 n (RowMath.hi k)) := by
  show (V m c main_call0_v3 : Vec Ideal S128x256 .f32) (ix2 k n) = _
  rw [wn_eq, transpose_ix2_apply]
  exact slice2_axis1_apply 128 (wsArg m c) _ n k (RowMath.hi k) rfl

theorem w1_apply (c : Dev nD) (k : Fin 256) (n : Fin 256) : w1V m c (ix2 k n) = w1Arg m c (ix2 n k) := by
  show (V m c main_call0_v4 : Vec Ideal S256x256 .f32) (ix2 k n) = _
  rw [w1_eq, transpose_ix2_apply]

theorem w2_apply (c : Dev nD) (k : Fin 256) (n : Fin 128) : w2V m c (ix2 k n) = w2Arg m c (ix2 n k) := by
  show (V m c main_call0_v5 : Vec Ideal S256x128 .f32) (ix2 k n) = _
  rw [w2_eq, transpose_ix2_apply]

theorem w3_apply (c : Dev nD) (k : Fin 128) (n : Fin 64) : w3V m c (ix2 k n) = w3Arg m c (ix2 n k) := by
  show (V m c main_call0_v6 : Vec Ideal S128x64 .f32) (ix2 k n) = _
  rw [w3_eq, transpose_ix2_apply]

theorem b1_apply (c : Dev nD) (n : Fin 256) : b1V m c (ix2 (0 : Fin 1) n) = b1Arg m c (ix1 n) := by
  show (V m c main_call0_v7 : Vec Ideal S1x256 .f32) (ix2 (0 : Fin 1) n) = _
  rw [b1_eq, shapeCast_a_1a_apply]

theorem b2_apply (c : Dev nD) (n : Fin 128) : b2V m c (ix2 (0 : Fin 1) n) = b2Arg m c (ix1 n) := by
  show (V m c main_call0_v8 : Vec Ideal S1x128 .f32) (ix2 (0 : Fin 1) n) = _
  rw [b2_eq, shapeCast_a_1a_apply]

theorem b3_apply (c : Dev nD) (n : Fin 64) : b3V m c (ix2 (0 : Fin 1) n) = b3Arg m c (ix1 n) := by
  show (V m c main_call0_v9 : Vec Ideal S1x64 .f32) (ix2 (0 : Fin 1) n) = _
  rw [b3_eq, shapeCast_a_1a_apply]

/-! ## What a point writes back, the cover, the array -/

/-- Point `t` writes back rows `512 t … 512 t + 511` of `G`. -/
theorem flushed_eq (c : Dev nD) (t : Fin cfg0.N) :
    (dats m 0 c).flushed 10 t = ((cfg0.win 10).blk t).view.read (Elt Ideal) (G m c) := by
  have e := idx_facts t
  rw [Value.flushed10_A, out_A]
  funext y
  obtain ⟨p, j, rfl⟩ : ∃ (p : Fin 512) (j : Fin 64), y = ix2 p j := ⟨y 0, y 1, eq_ix2 y⟩
  have hr : 512 * t.val + p.val < 8192 := by have := t.isLt; have hN : cfg0.N = 16 := N_0; omega
  have hemb : ((cfg0.win 10).blk t).view.emb (ix2 p j) = ix2 (⟨512 * t.val + p.val, hr⟩ : Fin 8192) j := by
    funext a
    refine Fin.ext ?_
    match a with
    | ⟨0, _⟩ => show win0_10.index t (0 : Fin 2) * 512 + 1 * p.val = 512 * t.val + p.val; omega
    | ⟨1, _⟩ => show win0_10.index t (1 : Fin 2) * 64 + 1 * j.val = j.val; omega
  show k0_pay1 (F := Ideal) (k0_pay2 (F := Ideal) (blk0 m c t) (blk1 m c t) (ownRows (grid0.coords t) (blk1 m c t))
      (blk2 m c t) (blk3 m c t) (blk4 m c t) (blk5 m c t)) (blk6 m c t) (blk7 m c t) (blk8 m c t) (blk9 m c t) (ix2 p j)
    = G m c (((cfg0.win 10).blk t).view.emb (ix2 p j))
  rw [hemb]
  refine (Block.block_apply (blk0 m c t) (blk1 m c t) (ownRows (grid0.coords t) (blk1 m c t)) (blk2 m c t) (blk3 m c t)
    (blk4 m c t) (blk5 m c t) (blk6 m c t) (blk7 m c t) (blk8 m c t) (blk9 m c t) p j).trans ?_
  show _ = RowMath.outAt (xArg m c) (adjArg m c) (wsArg m c) (w1Arg m c) (b1Arg m c) (w2Arg m c) (b2Arg m c) (w3Arg m c)
    (b3Arg m c) ⟨512 * t.val + p.val, hr⟩ j
  unfold RowMath.outAt
  have h0 : (fun k => blk0 m c t (ix2 p k)) = fun k => adjArg m c (ix2 (⟨512 * t.val + p.val, hr⟩ : Fin 8192) k) :=
    funext fun k => adj_blk m c t p k _ rfl
  have h1 : (fun k j => blk1 m c t (ix2 k j)) = fun k j => xArg m c (ix2 k j) := by rw [x_blk, xV_eq]
  have h1r : (fun k => ownRows (grid0.coords t) (blk1 m c t) (ix2 p k))
      = fun k => xArg m c (ix2 (⟨512 * t.val + p.val, hr⟩ : Fin 8192) k) := by
    rw [x_blk, xV_eq]
    exact funext fun k => ownRows_apply (grid0.coords t) (xArg m c) p k _ (by rw [coord_fact t])
  have h2 : (fun k n => blk2 m c t (ix2 k n)) = fun k n => wsArg m c (ix2 n (RowMath.lo k)) := by
    rw [wx_blk]; exact funext fun k => funext fun n => wx_apply m c k n
  have h3 : (fun k n => blk3 m c t (ix2 k n)) = fun k n => wsArg m c (ix2 n (RowMath.hi k)) := by
    rw [wn_blk]; exact funext fun k => funext fun n => wn_apply m c k n
  have h4 : (fun k n => blk4 m c t (ix2 k n)) = fun k n => w1Arg m c (ix2 n k) := by
    rw [w1_blk]; exact funext fun k => funext fun n => w1_apply m c k n
  have h5 : (fun n => blk5 m c t (ix2 (0 : Fin 1) n)) = fun n => b1Arg m c (ix1 n) := by
    rw [b1_blk]; exact funext fun n => b1_apply m c n
  have h6 : (fun k n => blk6 m c t (ix2 k n)) = fun k n => w2Arg m c (ix2 n k) := by
    rw [w2_blk]; exact funext fun k => funext fun n => w2_apply m c k n
  have h7 : (fun n => blk7 m c t (ix2 (0 : Fin 1) n)) = fun n => b2Arg m c (ix1 n) := by
    rw [b2_blk]; exact funext fun n => b2_apply m c n
  have h8 : (fun k n => blk8 m c t (ix2 k n)) = fun k n => w3Arg m c (ix2 n k) := by
    rw [w3_blk]; exact funext fun k => funext fun n => w3_apply m c k n
  have h9 : (fun n => blk9 m c t (ix2 (0 : Fin 1) n)) = fun n => b3Arg m c (ix1 n) := by
    rw [b3_blk]; exact funext fun n => b3_apply m c n
  rw [h0, h1, h1r, h2, h3, h4, h5, h6, h7, h8, h9]

/-- An index of the result array is in point `t`'s block iff each coordinate is in the block's range on its axis. -/
theorem mem_blk (t : Fin cfg0.N) (i : S8192x64.Idx) :
    i ∈ ((cfg0.win 10).blk t).view.set ↔ ∀ a : Fin 2, win0_10.index t a * S512x64.size a ≤ (i a).val
      ∧ (i a).val < win0_10.index t a * S512x64.size a + S512x64.size a := by
  show i ∈ ((View.whole main_v0).slice (win0_10.rect t)).set ↔ _
  rw [View.set_slice_whole, Rect.mem_set_unit]
  exact Iff.rfl

/-- Every index of the result array is in the block of the point its row falls in: row `r` in point `r / 512`. -/
theorem cover (i : S8192x64.Idx) :
    ∃ t : Fin cfg0.N, (cfg0.win 10).flush t = true ∧ i ∈ ((cfg0.win 10).blk t).view.set := by
  have hi0 : (i 0).val < 8192 := (i 0).isLt
  have hi1 : (i 1).val < 64 := (i 1).isLt
  have hN : cfg0.N = 16 := N_0
  have ht : (i 0).val / 512 < cfg0.N := by rw [hN]; omega
  have e := idx_facts ⟨(i 0).val / 512, ht⟩
  refine ⟨⟨(i 0).val / 512, ht⟩, flush0_10 _, ?_⟩
  rw [mem_blk]
  intro a
  match a with
  | ⟨0, _⟩ =>
    show win0_10.index ⟨(i 0).val / 512, ht⟩ (0 : Fin 2) * 512 ≤ (i 0).val
      ∧ (i 0).val < win0_10.index ⟨(i 0).val / 512, ht⟩ (0 : Fin 2) * 512 + 512
    have : win0_10.index ⟨(i 0).val / 512, ht⟩ (0 : Fin 2) = (i 0).val / 512 := e.2.2.2.2.2.2.2.2.2.2.2.2.2.2.2.2.2.2.2.2.1
    omega
  | ⟨1, _⟩ =>
    show win0_10.index ⟨(i 0).val / 512, ht⟩ (1 : Fin 2) * 64 ≤ (i 1).val
      ∧ (i 1).val < win0_10.index ⟨(i 0).val / 512, ht⟩ (1 : Fin 2) * 64 + 64
    have : win0_10.index ⟨(i 0).val / 512, ht⟩ (1 : Fin 2) = 0 := e.2.2.2.2.2.2.2.2.2.2.2.2.2.2.2.2.2.2.2.2.2.1
    omega

/-- The result array after the run is `G` of the arguments. -/
theorem final (c : Dev nD) : (dats m 0 c).arrAt 10 cfg0.N = G m c :=
  (dats m 0 c).arrAt_eq_of_cover 10 (G m c) (fun t _ => flushed_eq m c t) cover

/-- The idealized kernel's run, read: the result at `G` of the arguments, the arguments unchanged. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Value.run_blocks m ρ)

end AtIdeal

end Cert.KernelIdeal.Arr

end
-- ==== Proof.RefOps.lean ====
/-
  The reference program's @main as a straight line: sixty-eight host operations once the four called functions
  (the rectifier at zero and the three leaky rectifiers, each of which calls a select) are set out at their call
  sites over the calls' own buffers, cut at its five stages — the first stage with the rectifier at zero, the
  three dense stages, the last stage.
-/
import proofs.«132084_g18940805775915_cont_8to1_958_17_alg».proof.Proof.Gen.ReferenceIdeal
import Idealize.ShloMosaic.Lib.StableHlo.Run
import Idealize.ShloMosaic.Lib.Pipeline.Regions

noncomputable section

namespace Cert.ReferenceIdeal.RefOps

open Cert.ReferenceIdeal Cert.ReferenceIdeal.Gen Idealize.ShloMosaic Idealize.ShloMosaic.TcCoe Idealize.SL.Sem
open Idealize.ShloMosaic.StableHlo

variable {F : FTy → Type} [FloatOps F]

/-! ## @main as five stretches of operations -/

/-- The first stage and the rectifier at zero. -/
abbrev seg1 : List (HloOp τ sig (Elt F)) :=
  [ nullary main_cst (constant S_ .f32 0x00000000#32),
    binary main_arg1 main_cst main_v0 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    reshape main_v0 main_v1 rfl shapeCasts_S8192_S8192x1,
    nullary main_cst_0 (constant S_ .f32 0x3F800000#32),
    unary main_cst_0 main_v2 (broadcastInDim S8192x1 ![] bcast_S_S8192x1 : (⟨S_, .f32⟩ : BufTy).Contents (Elt F) → (⟨S8192x1, .f32⟩ : BufTy).Contents (Elt F)),
    binary main_v1 main_v2 main_v3 (addf : (⟨S8192x1, .f32⟩ : BufTy).Contents (Elt F) → (⟨S8192x1, .f32⟩ : BufTy).Contents (Elt F) → (⟨S8192x1, .f32⟩ : BufTy).Contents (Elt F)),
    binary main_arg1 main_arg0 main_v4 ((fun l r => Host.dotGeneral dot_S8192x8192_S8192x128_S8192x128_1_0_0_1_n_n none l r) : (⟨S8192x8192, .f32⟩ : BufTy).Contents (Elt F) → (⟨S8192x128, .f32⟩ : BufTy).Contents (Elt F) → (⟨S8192x128, .f32⟩ : BufTy).Contents (Elt F)),
    unary main_v3 main_v5 (broadcastInDim S8192x128 ![0, 1] bcast_S8192x1_S8192x128_0_1 : (⟨S8192x1, .f32⟩ : BufTy).Contents (Elt F) → (⟨S8192x128, .f32⟩ : BufTy).Contents (Elt F)),
    binary main_v4 main_v5 main_v6 (Host.divf : (⟨S8192x128, .f32⟩ : BufTy).Contents (Elt F) → (⟨S8192x128, .f32⟩ : BufTy).Contents (Elt F) → (⟨S8192x128, .f32⟩ : BufTy).Contents (Elt F)),
    binary main_arg0 main_v6 main_v7 ((fun a b => concatenate S8192x256 1 [⟨S8192x128, a⟩, ⟨S8192x128, b⟩] concatenates_S8192x128_S8192x128_S8192x256_d1) : (⟨S8192x128, .f32⟩ : BufTy).Contents (Elt F) → (⟨S8192x128, .f32⟩ : BufTy).Contents (Elt F) → (⟨S8192x256, .f32⟩ : BufTy).Contents (Elt F)),
    unary main_arg2 main_v8 ((transpose S256x256 [1, 0] · transposes_S256x256_S256x256_1_0) : (⟨S256x256, .f32⟩ : BufTy).Contents (Elt F) → (⟨S256x256, .f32⟩ : BufTy).Contents (Elt F)),
    binary main_v7 main_v8 main_v9 ((fun l r => Host.dotGeneral dot_S8192x256_S256x256_S8192x256_1_0_0_1_n_n none l r) : (⟨S8192x256, .f32⟩ : BufTy).Contents (Elt F) → (⟨S256x256, .f32⟩ : BufTy).Contents (Elt F) → (⟨S8192x256, .f32⟩ : BufTy).Contents (Elt F)),
    TRef.nullary main_call0.cst (constant S_ .f32 0x00000000#32),
    TRef.unary main_call0.cst main_call0.v0 (broadcastInDim S8192x256 ![] bcast_S_S8192x256),
    TRef.binary (.of main_v9 : TRef sig ⟨S8192x256, .f32⟩) main_call0.v0 main_call0.v1 maximumf ]

/-- The first dense stage. -/
abbrev seg2 : List (HloOp τ sig (Elt F)) :=
  [ unary main_arg3 main_v11 ((transpose S256x256 [1, 0] · transposes_S256x256_S256x256_1_0) : (⟨S256x256, .f32⟩ : BufTy).Contents (Elt F) → (⟨S256x256, .f32⟩ : BufTy).Contents (Elt F)),
    binary main_v10 main_v11 main_v12 ((fun l r => Host.dotGeneral dot_S8192x256_S256x256_S8192x256_1_0_0_1_n_n none l r) : (⟨S8192x256, .f32⟩ : BufTy).Contents (Elt F) → (⟨S256x256, .f32⟩ : BufTy).Contents (Elt F) → (⟨S8192x256, .f32⟩ : BufTy).Contents (Elt F)),
    unary main_arg4 main_v13 (broadcastInDim S1x256 ![1] bcast_S256_S1x256_1 : (⟨S256, .f32⟩ : BufTy).Contents (Elt F) → (⟨S1x256, .f32⟩ : BufTy).Contents (Elt F)),
    unary main_v13 main_v14 (broadcastInDim S8192x256 ![0, 1] bcast_S1x256_S8192x256_0_1 : (⟨S1x256, .f32⟩ : BufTy).Contents (Elt F) → (⟨S8192x256, .f32⟩ : BufTy).Contents (Elt F)),
    binary main_v12 main_v14 main_v15 (addf : (⟨S8192x256, .f32⟩ : BufTy).Contents (Elt F) → (⟨S8192x256, .f32⟩ : BufTy).Contents (Elt F) → (⟨S8192x256, .f32⟩ : BufTy).Contents (Elt F)),
    nullary main_cst_1 (constant S_ .f32 0x3C23D70A#32),
    TRef.nullary main_call1.cst (constant S_ .f32 0x00000000#32),
    TRef.unary main_call1.cst main_call1.v0 (broadcastInDim S8192x256 ![] bcast_S_S8192x256),
    TRef.binary (.of main_v15 : TRef sig ⟨S8192x256, .f32⟩) main_call1.v0 main_call1.v1 (cmpf .oge),
    TRef.unary (.of main_cst_1 : TRef sig ⟨S_, .f32⟩) main_call1.v2 id,
    TRef.unary main_call1.v2 main_call1.v3 (broadcastInDim S8192x256 ![] bcast_S_S8192x256),
    TRef.binary main_call1.v3 (.of main_v15 : TRef sig ⟨S8192x256, .f32⟩) main_call1.v4 mulf,
    TRef.ternary main_call1.v1 (.of main_v15 : TRef sig ⟨S8192x256, .f32⟩) main_call1.v4 main_call1.call0.v0 select ]

/-- The second dense stage. -/
abbrev seg3 : List (HloOp τ sig (Elt F)) :=
  [ unary main_arg5 main_v17 ((transpose S256x128 [1, 0] · transposes_S128x256_S256x128_1_0) : (⟨S128x256, .f32⟩ : BufTy).Contents (Elt F) → (⟨S256x128, .f32⟩ : BufTy).Contents (Elt F)),
    binary main_v16 main_v17 main_v18 ((fun l r => Host.dotGeneral dot_S8192x256_S256x128_S8192x128_1_0_0_1_n_n none l r) : (⟨S8192x256, .f32⟩ : BufTy).Contents (Elt F) → (⟨S256x128, .f32⟩ : BufTy).Contents (Elt F) → (⟨S8192x128, .f32⟩ : BufTy).Contents (Elt F)),
    unary main_arg6 main_v19 (broadcastInDim S1x128 ![1] bcast_S128_S1x128_1 : (⟨S128, .f32⟩ : BufTy).Contents (Elt F) → (⟨S1x128, .f32⟩ : BufTy).Contents (Elt F)),
    unary main_v19 main_v20 (broadcastInDim S8192x128 ![0, 1] bcast_S1x128_S8192x128_0_1 : (⟨S1x128, .f32⟩ : BufTy).Contents (Elt F) → (⟨S8192x128, .f32⟩ : BufTy).Contents (Elt F)),
    binary main_v18 main_v20 main_v21 (addf : (⟨S8192x128, .f32⟩ : BufTy).Contents (Elt F) → (⟨S8192x128, .f32⟩ : BufTy).Contents (Elt F) → (⟨S8192x128, .f32⟩ : BufTy).Contents (Elt F)),
    nullary main_cst_2 (constant S_ .f32 0x3C23D70A#32),
    TRef.nullary main_call2.cst (constant S_ .f32 0x00000000#32),
    TRef.unary main_call2.cst main_call2.v0 (broadcastInDim S8192x128 ![] bcast_S_S8192x128),
    TRef.binary (.of main_v21 : TRef sig ⟨S8192x128, .f32⟩) main_call2.v0 main_call2.v1 (cmpf .oge),
    TRef.unary (.of main_cst_2 : TRef sig ⟨S_, .f32⟩) main_call2.v2 id,
    TRef.unary main_call2.v2 main_call2.v3 (broadcastInDim S8192x128 ![] bcast_S_S8192x128),
    TRef.binary main_call2.v3 (.of main_v21 : TRef sig ⟨S8192x128, .f32⟩) main_call2.v4 mulf,
    TRef.ternary main_call2.v1 (.of main_v21 : TRef sig ⟨S8192x128, .f32⟩) main_call2.v4 main_call2.call0.v0 select ]

/-- The third dense stage. -/
abbrev seg4 : List (HloOp τ sig (Elt F)) :=
  [ unary main_arg7 main_v23 ((transpose S128x64 [1, 0] · transposes_S64x128_S128x64_1_0) : (⟨S64x128, .f32⟩ : BufTy).Contents (Elt F) → (⟨S128x64, .f32⟩ : BufTy).Contents (Elt F)),
    binary main_v22 main_v23 main_v24 ((fun l r => Host.dotGeneral dot_S8192x128_S128x64_S8192x64_1_0_0_1_n_n none l r) : (⟨S8192x128, .f32⟩ : BufTy).Contents (Elt F) → (⟨S128x64, .f32⟩ : BufTy).Contents (Elt F) → (⟨S8192x64, .f32⟩ : BufTy).Contents (Elt F)),
    unary main_arg8 main_v25 (broadcastInDim S1x64 ![1] bcast_S64_S1x64_1 : (⟨S64, .f32⟩ : BufTy).Contents (Elt F) → (⟨S1x64, .f32⟩ : BufTy).Contents (Elt F)),
    unary main_v25 main_v26 (broadcastInDim S8192x64 ![0, 1] bcast_S1x64_S8192x64_0_1 : (⟨S1x64, .f32⟩ : BufTy).Contents (Elt F) → (⟨S8192x64, .f32⟩ : BufTy).Contents (Elt F)),
    binary main_v24 main_v26 main_v27 (addf : (⟨S8192x64, .f32⟩ : BufTy).Contents (Elt F) → (⟨S8192x64, .f32⟩ : BufTy).Contents (Elt F) → (⟨S8192x64, .f32⟩ : BufTy).Contents (Elt F)),
    nullary main_cst_3 (constant S_ .f32 0x3C23D70A#32),
    TRef.nullary main_call3.cst (constant S_ .f32 0x00000000#32),
    TRef.unary main_call3.cst main_call3.v0 (broadcastInDim S8192x64 ![] bcast_S_S8192x64),
    TRef.binary (.of main_v27 : TRef sig ⟨S8192x64, .f32⟩) main_call3.v0 main_call3.v1 (cmpf .oge),
    TRef.unary (.of main_cst_3 : TRef sig ⟨S_, .f32⟩) main_call3.v2 id,
    TRef.unary main_call3.v2 main_call3.v3 (broadcastInDim S8192x64 ![] bcast_S_S8192x64),
    TRef.binary main_call3.v3 (.of main_v27 : TRef sig ⟨S8192x64, .f32⟩) main_call3.v4 mulf,
    TRef.ternary main_call3.v1 (.of main_v27 : TRef sig ⟨S8192x64, .f32⟩) main_call3.v4 main_call3.call0.v0 select ]

/-- The last stage. -/
abbrev seg5 : List (HloOp τ sig (Elt F)) :=
  [ nullary main_cst_4 (constant S_ .f32 0xFF800000#32),
    binary main_v28 main_cst_4 main_v29 ((fun x v => Host.reduce FloatOps.maximumf x v reducesTo_S8192x64_S8192_d1 h_S_) : (⟨S8192x64, .f32⟩ : BufTy).Contents (Elt F) → (⟨S_, .f32⟩ : BufTy).Contents (Elt F) → (⟨S8192, .f32⟩ : BufTy).Contents (Elt F)),
    nullary main_cst_5 (constant S_ .f32 0xFF800000#32),
    unary main_cst_5 main_v30 (broadcastInDim S8192 ![] bcast_S_S8192 : (⟨S_, .f32⟩ : BufTy).Contents (Elt F) → (⟨S8192, .f32⟩ : BufTy).Contents (Elt F)),
    binary main_v30 main_v29 main_v31 (maximumf : (⟨S8192, .f32⟩ : BufTy).Contents (Elt F) → (⟨S8192, .f32⟩ : BufTy).Contents (Elt F) → (⟨S8192, .f32⟩ : BufTy).Contents (Elt F)),
    unary main_v31 main_v32 (broadcastInDim S8192x1 ![0] bcast_S8192_S8192x1_0 : (⟨S8192, .f32⟩ : BufTy).Contents (Elt F) → (⟨S8192x1, .f32⟩ : BufTy).Contents (Elt F)),
    unary main_v32 main_v33 (broadcastInDim S8192x64 ![0, 1] bcast_S8192x1_S8192x64_0_1 : (⟨S8192x1, .f32⟩ : BufTy).Contents (Elt F) → (⟨S8192x64, .f32⟩ : BufTy).Contents (Elt F)),
    binary main_v28 main_v33 main_v34 (subf : (⟨S8192x64, .f32⟩ : BufTy).Contents (Elt F) → (⟨S8192x64, .f32⟩ : BufTy).Contents (Elt F) → (⟨S8192x64, .f32⟩ : BufTy).Contents (Elt F)),
    unary main_v34 main_v35 (Host.exp : (⟨S8192x64, .f32⟩ : BufTy).Contents (Elt F) → (⟨S8192x64, .f32⟩ : BufTy).Contents (Elt F)),
    nullary main_cst_6 (constant S_ .f32 0x00000000#32),
    binary main_v35 main_cst_6 main_v36 ((fun x v => Host.reduceAdd x v reducesTo_S8192x64_S8192_d1 h_S_) : (⟨S8192x64, .f32⟩ : BufTy).Contents (Elt F) → (⟨S_, .f32⟩ : BufTy).Contents (Elt F) → (⟨S8192, .f32⟩ : BufTy).Contents (Elt F)),
    unary main_v36 main_v37 (broadcastInDim S8192x1 ![0] bcast_S8192_S8192x1_0 : (⟨S8192, .f32⟩ : BufTy).Contents (Elt F) → (⟨S8192x1, .f32⟩ : BufTy).Contents (Elt F)),
    unary main_v37 main_v38 (broadcastInDim S8192x64 ![0, 1] bcast_S8192x1_S8192x64_0_1 : (⟨S8192x1, .f32⟩ : BufTy).Contents (Elt F) → (⟨S8192x64, .f32⟩ : BufTy).Contents (Elt F)),
    binary main_v35 main_v38 main_v39 (Host.divf : (⟨S8192x64, .f32⟩ : BufTy).Contents (Elt F) → (⟨S8192x64, .f32⟩ : BufTy).Contents (Elt F) → (⟨S8192x64, .f32⟩ : BufTy).Contents (Elt F)) ]

/-- @main's operations in order, the called functions' operations in place of the calls. -/
abbrev ops : List (HloOp τ sig (Elt F)) := seg1 ++ (seg2 ++ (seg3 ++ (seg4 ++ seg5)))

/-- @main is that straight line: the functions' definitions unfolded at their calls, both sides one chain of
    operations once sequencing is reassociated. -/
theorem main_eq (c : Dev nD) : main (F := F) c = seq ops := by
  chain_rfl

theorem scopedRefs_eq : (Finset.univ.filter fun b : Ref sig .tc => b.isScoped) = ∅ := by decide
theorem scopedSems_eq : (Finset.univ.filter fun sm : SemLoc sig => sm.isScoped .tc) = ∅ := by decide

theorem seg1_sub : (seg1 : List (HloOp τ sig (Elt F))).Forall fun op => op.bufs ⊆ tcRefs τ sig :=
  ⟨nullary_bufs_sub .., binary_bufs_sub .., reshape_bufs_sub .., nullary_bufs_sub .., unary_bufs_sub .., binary_bufs_sub .., binary_bufs_sub .., unary_bufs_sub .., binary_bufs_sub .., binary_bufs_sub .., unary_bufs_sub .., binary_bufs_sub .., nullary_bufs_sub .., unary_bufs_sub .., binary_bufs_sub ..⟩
theorem seg2_sub : (seg2 : List (HloOp τ sig (Elt F))).Forall fun op => op.bufs ⊆ tcRefs τ sig :=
  ⟨unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩
theorem seg3_sub : (seg3 : List (HloOp τ sig (Elt F))).Forall fun op => op.bufs ⊆ tcRefs τ sig :=
  ⟨unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩
theorem seg4_sub : (seg4 : List (HloOp τ sig (Elt F))).Forall fun op => op.bufs ⊆ tcRefs τ sig :=
  ⟨unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩
theorem seg5_sub : (seg5 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩

theorem ops_sub : (ops : List (HloOp τ sig (Elt F))).Forall fun op => op.bufs ⊆ tcRefs τ sig :=
  List.forall_iff_forall_mem.2 fun op h => by
    rcases List.mem_append.1 h with h | h
    · exact List.forall_iff_forall_mem.1 seg1_sub op h
    rcases List.mem_append.1 h with h | h
    · exact List.forall_iff_forall_mem.1 seg2_sub op h
    rcases List.mem_append.1 h with h | h
    · exact List.forall_iff_forall_mem.1 seg3_sub op h
    rcases List.mem_append.1 h with h | h
    · exact List.forall_iff_forall_mem.1 seg4_sub op h
    · exact List.forall_iff_forall_mem.1 seg5_sub op h

end Cert.ReferenceIdeal.RefOps

end
-- ==== Proof.RefKeep.lean ====
/-
  Buffers the reference's operations leave alone: each operation writes one buffer of its own, so an argument
  array keeps its launch contents through the whole line, and through each of the line's stretches.
-/
import proofs.«132084_g18940805775915_cont_8to1_958_17_alg».proof.Proof.RefOps

set_option Elab.async false

noncomputable section

namespace Cert.ReferenceIdeal.RefKeep

open Cert.ReferenceIdeal Cert.ReferenceIdeal.Gen Cert.ReferenceIdeal.RefOps Idealize.ShloMosaic Idealize.ShloMosaic.TcCoe
open Idealize.SL.Sem Idealize.ShloMosaic.StableHlo

variable {F : FTy → Type} [FloatOps F]

/-- Two stretches run one after the other: the second from what the first leaves. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- A buffer none of the listed operations writes keeps its contents: each operation writes one buffer, another. -/
local macro "keep_tac" : tactic => `(tactic| (
  refine after_of_forall_not_mem _ _ (List.forall_iff_forall_mem.mp ?_)
  simp only [ops, seg1, seg2, seg3, seg4, seg5, List.cons_append, List.nil_append, List.Forall, nullary_writes,
    unary_writes, binary_writes, ternary_writes, reshape_writes, Finset.mem_singleton]
  repeat' apply And.intro
  all_goals exact devRef_ne_of_ne (by decide)))

theorem seg1_arg3 (W : Valuation τ sig (Elt F)) :
    after seg1 W (main_arg3 : DevRef τ sig) = W (main_arg3 : DevRef τ sig) := by keep_tac
theorem seg1_arg4 (W : Valuation τ sig (Elt F)) :
    after seg1 W (main_arg4 : DevRef τ sig) = W (main_arg4 : DevRef τ sig) := by keep_tac
theorem seg1_arg5 (W : Valuation τ sig (Elt F)) :
    after seg1 W (main_arg5 : DevRef τ sig) = W (main_arg5 : DevRef τ sig) := by keep_tac
theorem seg1_arg6 (W : Valuation τ sig (Elt F)) :
    after seg1 W (main_arg6 : DevRef τ sig) = W (main_arg6 : DevRef τ sig) := by keep_tac
theorem seg1_arg7 (W : Valuation τ sig (Elt F)) :
    after seg1 W (main_arg7 : DevRef τ sig) = W (main_arg7 : DevRef τ sig) := by keep_tac
theorem seg1_arg8 (W : Valuation τ sig (Elt F)) :
    after seg1 W (main_arg8 : DevRef τ sig) = W (main_arg8 : DevRef τ sig) := by keep_tac
theorem seg2_arg5 (W : Valuation τ sig (Elt F)) :
    after seg2 W (main_arg5 : DevRef τ sig) = W (main_arg5 : DevRef τ sig) := by keep_tac
theorem seg2_arg6 (W : Valuation τ sig (Elt F)) :
    after seg2 W (main_arg6 : DevRef τ sig) = W (main_arg6 : DevRef τ sig) := by keep_tac
theorem seg2_arg7 (W : Valuation τ sig (Elt F)) :
    after seg2 W (main_arg7 : DevRef τ sig) = W (main_arg7 : DevRef τ sig) := by keep_tac
theorem seg2_arg8 (W : Valuation τ sig (Elt F)) :
    after seg2 W (main_arg8 : DevRef τ sig) = W (main_arg8 : DevRef τ sig) := by keep_tac
theorem seg3_arg7 (W : Valuation τ sig (Elt F)) :
    after seg3 W (main_arg7 : DevRef τ sig) = W (main_arg7 : DevRef τ sig) := by keep_tac
theorem seg3_arg8 (W : Valuation τ sig (Elt F)) :
    after seg3 W (main_arg8 : DevRef τ sig) = W (main_arg8 : DevRef τ sig) := by keep_tac

theorem arg0_eq (V : Valuation τ sig (Elt F)) :
    after ops V (main_arg0 : DevRef τ sig) = V (main_arg0 : DevRef τ sig) := by keep_tac
theorem arg1_eq (V : Valuation τ sig (Elt F)) :
    after ops V (main_arg1 : DevRef τ sig) = V (main_arg1 : DevRef τ sig) := by keep_tac
theorem arg2_eq (V : Valuation τ sig (Elt F)) :
    after ops V (main_arg2 : DevRef τ sig) = V (main_arg2 : DevRef τ sig) := by keep_tac
theorem arg3_eq (V : Valuation τ sig (Elt F)) :
    after ops V (main_arg3 : DevRef τ sig) = V (main_arg3 : DevRef τ sig) := by keep_tac
theorem arg4_eq (V : Valuation τ sig (Elt F)) :
    after ops V (main_arg4 : DevRef τ sig) = V (main_arg4 : DevRef τ sig) := by keep_tac
theorem arg5_eq (V : Valuation τ sig (Elt F)) :
    after ops V (main_arg5 : DevRef τ sig) = V (main_arg5 : DevRef τ sig) := by keep_tac
theorem arg6_eq (V : Valuation τ sig (Elt F)) :
    after ops V (main_arg6 : DevRef τ sig) = V (main_arg6 : DevRef τ sig) := by keep_tac
theorem arg7_eq (V : Valuation τ sig (Elt F)) :
    after ops V (main_arg7 : DevRef τ sig) = V (main_arg7 : DevRef τ sig) := by keep_tac
theorem arg8_eq (V : Valuation τ sig (Elt F)) :
    after ops V (main_arg8 : DevRef τ sig) = V (main_arg8 : DevRef τ sig) := by keep_tac

end Cert.ReferenceIdeal.RefKeep

end
-- ==== Proof.HostStages.lean ====
/-
  The reference's three kinds of stage, as the host program spells them, each read at an entry at the ideal values.

  A dense stage is a general dot product with the transposed weight, the bias spread first to a row and then over
  the rows, and the leaky rectifier spelt with scalars spread to the whole shape; the last stage takes each row's
  maximum and sum by host reductions, spreads them back as columns and divides; the first stage sums the adjacency
  matrix along its rows, divides its product with the features by that sum plus one, joins own and neighbour
  features side by side and multiplies by the transposed combined weight. Each is general in the number of rows,
  and reads at `(r, n)` as the row function of `RowMath` of row `r` of its operands.
-/
import proofs.«132084_g18940805775915_cont_8to1_958_17_alg».proof.Proof.LibColumn
import proofs.«132084_g18940805775915_cont_8to1_958_17_alg».proof.Proof.LibPlainDot
import proofs.«132084_g18940805775915_cont_8to1_958_17_alg».proof.Proof.RowMath
import Idealize.ShloMosaic.Lib.ValueLayout
import Idealize.ShloMosaic.Lib.Pipeline.Value

open scoped BigOperators

noncomputable section

namespace Cert.HostStages

open Idealize.ShloMosaic Idealize.ShloMosaic.ValueIdx Idealize.ShloMosaic.ValueLayout

variable {F : FTy → Type} [FloatOps F]

/-- The shape of a scalar. -/
abbrev S0 : Shape := ⟨0, ![]⟩

/-! ## The stages, for any float values -/

/-- The leaky rectifier on an array, as the host spells it: the zero and the slope are scalars spread to the shape. -/
def leakyH {s : Shape} (hbz : S0.BroadcastsInDim s (![] : Fin 0 → Fin s.rank)) (v : FVec F s .f32) : FVec F s .f32 :=
  select (cmpf .oge v (broadcastInDim s ![] hbz (constant S0 .f32 0x00000000#32))) v
    (mulf (broadcastInDim s ![] hbz (id (constant S0 .f32 0x3C23D70A#32))) v)

/-- A dense stage: `h · wᵀ`, plus the bias spread to a row and then over the rows, then the rectifier. -/
def dense {R K N : ℕ} (d : DotDims (⟨2, ![R, K]⟩ : Shape) (⟨2, ![K, N]⟩ : Shape) (⟨2, ![R, N]⟩ : Shape))
    (ht : (⟨2, ![N, K]⟩ : Shape).Transposes [1, 0] ⟨2, ![K, N]⟩)
    (hb1 : (⟨1, ![N]⟩ : Shape).BroadcastsInDim ⟨2, ![1, N]⟩ (![1] : Fin 1 → Fin 2))
    (hb2 : (⟨2, ![1, N]⟩ : Shape).BroadcastsInDim ⟨2, ![R, N]⟩ (![0, 1] : Fin 2 → Fin 2))
    (hbz : S0.BroadcastsInDim ⟨2, ![R, N]⟩ (![] : Fin 0 → Fin 2))
    (h : FVec F (⟨2, ![R, K]⟩ : Shape) .f32) (w : FVec F (⟨2, ![N, K]⟩ : Shape) .f32)
    (b : FVec F (⟨1, ![N]⟩ : Shape) .f32) : FVec F (⟨2, ![R, N]⟩ : Shape) .f32 :=
  leakyH hbz (addf (Host.dotGeneral d none h (transpose ⟨2, ![K, N]⟩ [1, 0] w ht))
    (broadcastInDim ⟨2, ![R, N]⟩ ![0, 1] hb2 (broadcastInDim ⟨2, ![1, N]⟩ ![1] hb1 b)))

/-- The last stage: each row's exponentials about the row's maximum, over their sum. -/
def softmaxH {R C : ℕ} (hr : (⟨2, ![R, C]⟩ : Shape).ReducesTo [1] ⟨1, ![R]⟩) (hu : 0 < S0.numel)
    (hbz : S0.BroadcastsInDim ⟨1, ![R]⟩ (![] : Fin 0 → Fin 1))
    (hb1 : (⟨1, ![R]⟩ : Shape).BroadcastsInDim ⟨2, ![R, 1]⟩ (![0] : Fin 1 → Fin 2))
    (hb2 : (⟨2, ![R, 1]⟩ : Shape).BroadcastsInDim ⟨2, ![R, C]⟩ (![0, 1] : Fin 2 → Fin 2))
    (v : FVec F (⟨2, ![R, C]⟩ : Shape) .f32) : FVec F (⟨2, ![R, C]⟩ : Shape) .f32 :=
  have e : FVec F (⟨2, ![R, C]⟩ : Shape) .f32 :=
    Host.exp (subf v (broadcastInDim ⟨2, ![R, C]⟩ ![0, 1] hb2 (broadcastInDim ⟨2, ![R, 1]⟩ ![0] hb1
      (maximumf (broadcastInDim ⟨1, ![R]⟩ ![] hbz (constant S0 .f32 0xFF800000#32))
        (Host.reduce FloatOps.maximumf v (constant S0 .f32 0xFF800000#32) hr hu)))))
  Host.divf e (broadcastInDim ⟨2, ![R, C]⟩ ![0, 1] hb2 (broadcastInDim ⟨2, ![R, 1]⟩ ![0] hb1
    (Host.reduceAdd e (constant S0 .f32 0x00000000#32) hr hu)))

/-- The first stage: row sums plus one divide the adjacency's product with the features; own and neighbour
    features side by side go through the transposed combined weight and are rectified at zero. -/
def sage {R : ℕ} (dA : DotDims (⟨2, ![R, 8192]⟩ : Shape) (⟨2, ![8192, 128]⟩ : Shape) (⟨2, ![R, 128]⟩ : Shape))
    (dW : DotDims (⟨2, ![R, 256]⟩ : Shape) (⟨2, ![256, 256]⟩ : Shape) (⟨2, ![R, 256]⟩ : Shape))
    (hr : (⟨2, ![R, 8192]⟩ : Shape).ReducesTo [1] ⟨1, ![R]⟩) (hu : 0 < S0.numel)
    (hsc : (⟨1, ![R]⟩ : Shape).ShapeCasts ⟨2, ![R, 1]⟩)
    (hb1 : S0.BroadcastsInDim ⟨2, ![R, 1]⟩ (![] : Fin 0 → Fin 2))
    (hb2 : (⟨2, ![R, 1]⟩ : Shape).BroadcastsInDim ⟨2, ![R, 128]⟩ (![0, 1] : Fin 2 → Fin 2))
    (hc : Shape.Concatenates [(⟨2, ![R, 128]⟩ : Shape), (⟨2, ![R, 128]⟩ : Shape)] ⟨2, ![R, 256]⟩ 1)
    (ht : (⟨2, ![256, 256]⟩ : Shape).Transposes [1, 0] ⟨2, ![256, 256]⟩)
    (hbz : S0.BroadcastsInDim ⟨2, ![R, 256]⟩ (![] : Fin 0 → Fin 2))
    (x : FVec F (⟨2, ![R, 128]⟩ : Shape) .f32) (xall : FVec F (⟨2, ![8192, 128]⟩ : Shape) .f32)
    (adj : FVec F (⟨2, ![R, 8192]⟩ : Shape) .f32) (ws : FVec F (⟨2, ![256, 256]⟩ : Shape) .f32) :
    FVec F (⟨2, ![R, 256]⟩ : Shape) .f32 :=
  have dg : FVec F (⟨2, ![R, 1]⟩ : Shape) .f32 :=
    addf (shapeCast ⟨2, ![R, 1]⟩ (Host.reduceAdd adj (constant S0 .f32 0x00000000#32) hr hu) hsc)
      (broadcastInDim ⟨2, ![R, 1]⟩ ![] hb1 (constant S0 .f32 0x3F800000#32))
  have ng : FVec F (⟨2, ![R, 128]⟩ : Shape) .f32 :=
    Host.divf (Host.dotGeneral dA none adj xall) (broadcastInDim ⟨2, ![R, 128]⟩ ![0, 1] hb2 dg)
  maximumf (Host.dotGeneral dW none (concatenate ⟨2, ![R, 256]⟩ 1 [⟨⟨2, ![R, 128]⟩, x⟩, ⟨⟨2, ![R, 128]⟩, ng⟩] hc)
      (transpose ⟨2, ![256, 256]⟩ [1, 0] ws ht))
    (broadcastInDim ⟨2, ![R, 256]⟩ ![] hbz (constant S0 .f32 0x00000000#32))

end Cert.HostStages

end
-- ==== Proof.RefRun.lean ====
/-
  The reference program's run, read back: each of the five stretches of its @main leaves its stage's result, read
  over an arbitrary valuation of the buffers, so that every weakly fair execution ends with the result buffer at
  the composition of the host stages of `HostStages` applied to the argument arrays, and the arguments as launched.
-/
import proofs.«132084_g18940805775915_cont_8to1_958_17_alg».proof.Proof.RefKeep
import proofs.«132084_g18940805775915_cont_8to1_958_17_alg».proof.Proof.HostStages

set_option Elab.async false

noncomputable section

namespace Cert.ReferenceIdeal.RefRun

open Cert.ReferenceIdeal Cert.ReferenceIdeal.Gen Cert.ReferenceIdeal.RefOps Cert.ReferenceIdeal.RefKeep Idealize.ShloMosaic Idealize.ShloMosaic.TcCoe
open Idealize.SL.Sem Idealize.ShloMosaic.StableHlo Cert.HostStages

variable {F : FTy → Type} [FloatOps F]

/-! ## What the buffers hold after each stretch -/

attribute [local irreducible] Host.reduce Host.reduceAdd concatenate in
set_option maxRecDepth 8192 in
/-- After the first stretch the rectified hidden rows are the first stage of the arguments: each operation's
    result rewritten in turn, the reductions and the join kept folded. -/
theorem seg1_out (W : Valuation τ sig (Elt F)) :
    after seg1 W (main_v10 : DevRef τ sig)
      = sage dot_S8192x8192_S8192x128_S8192x128_1_0_0_1_n_n dot_S8192x256_S256x256_S8192x256_1_0_0_1_n_n
          reducesTo_S8192x8192_S8192_d1 h_S_ shapeCasts_S8192_S8192x1 bcast_S_S8192x1 bcast_S8192x1_S8192x128_0_1
          concatenates_S8192x128_S8192x128_S8192x256_d1 transposes_S256x256_S256x256_1_0 bcast_S_S8192x256
          (W (main_arg0 : DevRef τ sig)) (W (main_arg0 : DevRef τ sig)) (W (main_arg1 : DevRef τ sig))
          (W (main_arg2 : DevRef τ sig)) := by
  after_results
  rfl

set_option maxRecDepth 8192 in
theorem seg2_out (W : Valuation τ sig (Elt F)) :
    after seg2 W (main_v16 : DevRef τ sig)
      = dense dot_S8192x256_S256x256_S8192x256_1_0_0_1_n_n transposes_S256x256_S256x256_1_0 bcast_S256_S1x256_1
          bcast_S1x256_S8192x256_0_1 bcast_S_S8192x256 (W (main_v10 : DevRef τ sig)) (W (main_arg3 : DevRef τ sig))
          (W (main_arg4 : DevRef τ sig)) := by
  after_results
  rfl

set_option maxRecDepth 8192 in
theorem seg3_out (W : Valuation τ sig (Elt F)) :
    after seg3 W (main_v22 : DevRef τ sig)
      = dense dot_S8192x256_S256x128_S8192x128_1_0_0_1_n_n transposes_S128x256_S256x128_1_0 bcast_S128_S1x128_1
          bcast_S1x128_S8192x128_0_1 bcast_S_S8192x128 (W (main_v16 : DevRef τ sig)) (W (main_arg5 : DevRef τ sig))
          (W (main_arg6 : DevRef τ sig)) := by
  after_results
  rfl

set_option maxRecDepth 8192 in
theorem seg4_out (W : Valuation τ sig (Elt F)) :
    after seg4 W (main_v28 : DevRef τ sig)
      = dense dot_S8192x128_S128x64_S8192x64_1_0_0_1_n_n transposes_S64x128_S128x64_1_0 bcast_S64_S1x64_1
          bcast_S1x64_S8192x64_0_1 bcast_S_S8192x64 (W (main_v22 : DevRef τ sig)) (W (main_arg7 : DevRef τ sig))
          (W (main_arg8 : DevRef τ sig)) := by
  after_results
  rfl

attribute [local irreducible] Host.reduce Host.reduceAdd in
set_option maxRecDepth 8192 in
theorem seg5_out (W : Valuation τ sig (Elt F)) :
    after seg5 W (main_v39 : DevRef τ sig)
      = softmaxH reducesTo_S8192x64_S8192_d1 h_S_ bcast_S_S8192 bcast_S8192_S8192x1_0 bcast_S8192x1_S8192x64_0_1
          (W (main_v28 : DevRef τ sig)) := by
  after_results
  rfl

/-- The result as one function of the argument arrays: the first stage, three dense stages, the last stage. -/
def refOut (x : Vec F S8192x128 .f32) (adj : Vec F S8192x8192 .f32) (ws w1 : Vec F S256x256 .f32)
    (b1 : Vec F S256 .f32) (w2 : Vec F S128x256 .f32) (b2 : Vec F S128 .f32) (w3 : Vec F S64x128 .f32)
    (b3 : Vec F S64 .f32) : Vec F S8192x64 .f32 :=
  softmaxH reducesTo_S8192x64_S8192_d1 h_S_ bcast_S_S8192 bcast_S8192_S8192x1_0 bcast_S8192x1_S8192x64_0_1
    (dense dot_S8192x128_S128x64_S8192x64_1_0_0_1_n_n transposes_S64x128_S128x64_1_0 bcast_S64_S1x64_1
      bcast_S1x64_S8192x64_0_1 bcast_S_S8192x64
      (dense dot_S8192x256_S256x128_S8192x128_1_0_0_1_n_n transposes_S128x256_S256x128_1_0 bcast_S128_S1x128_1
        bcast_S1x128_S8192x128_0_1 bcast_S_S8192x128
        (dense dot_S8192x256_S256x256_S8192x256_1_0_0_1_n_n transposes_S256x256_S256x256_1_0 bcast_S256_S1x256_1
          bcast_S1x256_S8192x256_0_1 bcast_S_S8192x256
          (sage dot_S8192x8192_S8192x128_S8192x128_1_0_0_1_n_n dot_S8192x256_S256x256_S8192x256_1_0_0_1_n_n
            reducesTo_S8192x8192_S8192_d1 h_S_ shapeCasts_S8192_S8192x1 bcast_S_S8192x1 bcast_S8192x1_S8192x128_0_1
            concatenates_S8192x128_S8192x128_S8192x256_d1 transposes_S256x256_S256x256_1_0 bcast_S_S8192x256
            x x adj ws)
          w1 b1) w2 b2) w3 b3)

/-- The whole line's fold at the result buffer is that function of the arguments' contents: stretch by stretch,
    each stretch's inputs either the stretch before's result or an argument no earlier stretch wrote. -/
theorem out_eq (V : Valuation τ sig (Elt F)) :
    after ops V (main_v39 : DevRef τ sig)
      = refOut (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig)) := by
  show after (seg1 ++ (seg2 ++ (seg3 ++ (seg4 ++ seg5)))) V (main_v39 : DevRef τ sig) = _
  rw [after_append, after_append, after_append, after_append, seg5_out, seg4_out, seg3_out, seg2_out, seg1_out]
  rw [seg3_arg7, seg3_arg8, seg2_arg7, seg2_arg8, seg2_arg5, seg2_arg6, seg1_arg7, seg1_arg8, seg1_arg5, seg1_arg6,
    seg1_arg3, seg1_arg4]
  rfl

/-- On every device, for any float values, from any memory with zero counters: every weakly fair execution of
    @main terminates with the result at `refOut` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v39)
        = refOut (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v39).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _)⟩)
    (run_seq scopedRefs_eq scopedSems_eq defs main (fun _ => ops) main_eq (fun _ => ops_sub) m ρ)

end Cert.ReferenceIdeal.RefRun

end
-- ==== Proof.LibBroadcastInDim.lean ====
/-
  A host `broadcast_in_dim` between a vector, a one-row or one-column matrix and a matrix, read at an entry (general
  in the sizes): a vector laid along the columns of a one-row matrix or along the rows of a one-column matrix, and a
  one-row or one-column matrix spread over all rows or all columns. Each reads the operand at the coordinate that
  survives.
-/
import Idealize.ShloMosaic.Lib.Pipeline.Value
import Idealize.ShloMosaic.Lib.ValueIdx

namespace Idealize.ShloMosaic.ValueLayout

open Idealize.ShloMosaic.ValueIdx

variable {α : Type}

/-- A vector `[n]` laid as the one row of `[1, n]` reads, at `(u, i)`, the vector at `i`. -/
theorem bcast_n_1n_apply {n : ℕ} (h : (⟨1, ![n]⟩ : Shape).BroadcastsInDim ⟨2, ![1, n]⟩ (![1] : Fin 1 → Fin 2))
    (x : (⟨1, ![n]⟩ : Shape).Idx → α) (u : Fin 1) (i : Fin n) :
    broadcastInDim ⟨2, ![1, n]⟩ ![1] h x (ix2 u i) = x (ix1 i) :=
  broadcastInDim_apply _ h x _ _ (fun a => by
    match a with
    | ⟨0, _⟩ =>
      show i.val = if n = 1 then 0 else i.val
      split
      · have := i.isLt; omega
      · rfl)

/-- A vector `[n]` laid as the one column of `[n, 1]` reads, at `(i, u)`, the vector at `i`. -/
theorem bcast_n_n1_apply {n : ℕ} (h : (⟨1, ![n]⟩ : Shape).BroadcastsInDim ⟨2, ![n, 1]⟩ (![0] : Fin 1 → Fin 2))
    (x : (⟨1, ![n]⟩ : Shape).Idx → α) (i : Fin n) (u : Fin 1) :
    broadcastInDim ⟨2, ![n, 1]⟩ ![0] h x (ix2 i u) = x (ix1 i) :=
  broadcastInDim_apply _ h x _ _ (fun a => by
    match a with
    | ⟨0, _⟩ =>
      show i.val = if n = 1 then 0 else i.val
      split
      · have := i.isLt; omega
      · rfl)

/-- A one-row matrix `[1, n]` spread over `r` rows reads, at `(p, i)`, the row at `i`. -/
theorem bcast_1n_rn_apply {r n : ℕ} (h : (⟨2, ![1, n]⟩ : Shape).BroadcastsInDim ⟨2, ![r, n]⟩ (![0, 1] : Fin 2 → Fin 2))
    (x : (⟨2, ![1, n]⟩ : Shape).Idx → α) (p : Fin r) (i : Fin n) :
    broadcastInDim ⟨2, ![r, n]⟩ ![0, 1] h x (ix2 p i) = x (ix2 (0 : Fin 1) i) :=
  broadcastInDim_apply _ h x _ _ (fun a => by
    match a with
    | ⟨0, _⟩ => show (0 : ℕ) = if (1 : ℕ) = 1 then 0 else p.val; rw [if_pos rfl]
    | ⟨1, _⟩ =>
      show i.val = if n = 1 then 0 else i.val
      split
      · have := i.isLt; omega
      · rfl)

/-- A one-column matrix `[r, 1]` spread over `n` columns reads, at `(p, i)`, the column at `p`. -/
theorem bcast_r1_rn_apply {r n : ℕ} (h : (⟨2, ![r, 1]⟩ : Shape).BroadcastsInDim ⟨2, ![r, n]⟩ (![0, 1] : Fin 2 → Fin 2))
    (x : (⟨2, ![r, 1]⟩ : Shape).Idx → α) (p : Fin r) (i : Fin n) :
    broadcastInDim ⟨2, ![r, n]⟩ ![0, 1] h x (ix2 p i) = x (ix2 p (0 : Fin 1)) :=
  broadcastInDim_apply _ h x _ _ (fun a => by
    match a with
    | ⟨0, _⟩ =>
      show p.val = if r = 1 then 0 else p.val
      split
      · have := p.isLt; omega
      · rfl
    | ⟨1, _⟩ => show (0 : ℕ) = if (1 : ℕ) = 1 then 0 else i.val; rw [if_pos rfl])

end Idealize.ShloMosaic.ValueLayout
-- ==== Proof.HostValue.lean ====
/-
  The reference's stages read at an entry, at the ideal values: each is the row function of `RowMath` of one row
  of its operands. The host's divisions, exponentials and reductions are the extended reals' own; a scalar spread
  to a shape reads that scalar everywhere; a maximum of the `-∞` word's value with a row maximum folded from the
  same value is that row maximum; and the product with the side-by-side join of own and neighbour features is
  the sum over the first half of the inputs plus the sum over the second.
-/
import proofs.«132084_g18940805775915_cont_8to1_958_17_alg».proof.Proof.HostStages
import proofs.«132084_g18940805775915_cont_8to1_958_17_alg».proof.Proof.KernelStages
import proofs.«132084_g18940805775915_cont_8to1_958_17_alg».proof.Proof.LibBroadcastInDim
import Idealize.ShloMosaic.PureOps.Reduce

open scoped BigOperators

noncomputable section

namespace Cert.HostStages

open Idealize.ShloMosaic Idealize.ShloMosaic.ValueIdx Idealize.ShloMosaic.ValueLayout

/-- The rectifier on an array is the rectifier of each entry. -/
theorem leakyH_apply {s : Shape} (hbz : S0.BroadcastsInDim s (![] : Fin 0 → Fin s.rank)) (v : FVec Ideal s .f32)
    (i : s.Idx) : leakyH hbz v i = RowMath.leaky (v i) := rfl

/-- A host sum along the columns from the zero word, at row `r`. -/
theorem rowSum_apply {R C : ℕ} (hr : (⟨2, ![R, C]⟩ : Shape).ReducesTo [1] ⟨1, ![R]⟩)
    (hred : (⟨2, ![R, C]⟩ : Shape).Reduces [1] ⟨1, ![R]⟩) (hu : 0 < S0.numel)
    (v : FVec Ideal (⟨2, ![R, C]⟩ : Shape) .f32) (r : Fin R) :
    Host.reduceAdd v (constant S0 .f32 0x00000000#32) hr hu (ix1 r) = ∑ k : Fin C, v (ix2 r k) := by
  show Ideal.hostReduceAdd hr v (Ideal.ofBits .f32 0x00000000#32) (ix1 r) = _
  rw [Ideal.hostReduceAdd_single hr hred, Ideal.ofBits_zero_f32, zero_add]
  exact Finset.sum_congr rfl fun k _ => congrArg v (KernelStages.lift_row hred r k)

/-- A host maximum along the columns from the `-∞` word, joined with that word's value, at row `r`. -/
theorem rowMax_apply {R C : ℕ} (hr : (⟨2, ![R, C]⟩ : Shape).ReducesTo [1] ⟨1, ![R]⟩)
    (hred : (⟨2, ![R, C]⟩ : Shape).Reduces [1] ⟨1, ![R]⟩) (hu : 0 < S0.numel)
    (hbz : S0.BroadcastsInDim ⟨1, ![R]⟩ (![] : Fin 0 → Fin 1))
    (v : FVec Ideal (⟨2, ![R, C]⟩ : Shape) .f32) (r : Fin R) :
    maximumf (broadcastInDim ⟨1, ![R]⟩ ![] hbz (constant S0 .f32 0xFF800000#32))
        (Host.reduce FloatOps.maximumf v (constant S0 .f32 0xFF800000#32) hr hu) (ix1 r)
      = RowMath.rowMax fun k : Fin C => v (ix2 r k) := by
  show max (Ideal.ofBits .f32 0xFF800000#32)
      (Host.reduce FloatOps.maximumf v (constant S0 .f32 0xFF800000#32) hr hu (ix1 r)) = _
  rw [Host.reduce_eq_fold_single FloatOps.maximumf v (constant S0 .f32 0xFF800000#32) hr hred hu (ix1 r)]
  refine (max_eq_right ((Finset.le_fold_max _).mpr (Or.inl le_rfl))).trans ?_
  unfold RowMath.rowMax
  exact congrArg (Finset.fold max _ · _) (funext fun k => congrArg v (KernelStages.lift_row hred r k))

/-- A dense stage at `(r, n)` is the dense row function of row `r`, the weight read output index first. -/
theorem dense_apply {R K N : ℕ} {d : DotDims (⟨2, ![R, K]⟩ : Shape) (⟨2, ![K, N]⟩ : Shape) (⟨2, ![R, N]⟩ : Shape)}
    (hd : PlainDot.IsPlain d) (ht : (⟨2, ![N, K]⟩ : Shape).Transposes [1, 0] ⟨2, ![K, N]⟩)
    (hb1 : (⟨1, ![N]⟩ : Shape).BroadcastsInDim ⟨2, ![1, N]⟩ (![1] : Fin 1 → Fin 2))
    (hb2 : (⟨2, ![1, N]⟩ : Shape).BroadcastsInDim ⟨2, ![R, N]⟩ (![0, 1] : Fin 2 → Fin 2))
    (hbz : S0.BroadcastsInDim ⟨2, ![R, N]⟩ (![] : Fin 0 → Fin 2))
    (h : FVec Ideal (⟨2, ![R, K]⟩ : Shape) .f32) (w : FVec Ideal (⟨2, ![N, K]⟩ : Shape) .f32)
    (b : FVec Ideal (⟨1, ![N]⟩ : Shape) .f32) (r : Fin R) (n : Fin N) :
    dense d ht hb1 hb2 hbz h w b (ix2 r n)
      = RowMath.layer (fun k => h (ix2 r k)) (fun k n => w (ix2 n k)) (fun n => b (ix1 n)) n := by
  unfold dense RowMath.layer
  rw [leakyH_apply]
  refine congrArg RowMath.leaky ?_
  show FloatOps.dotGeneral d none .single h (transpose ⟨2, ![K, N]⟩ [1, 0] w ht) (ix2 r n)
      + broadcastInDim ⟨2, ![R, N]⟩ ![0, 1] hb2 (broadcastInDim ⟨2, ![1, N]⟩ ![1] hb1 b) (ix2 r n) = _
  rw [PlainDot.dotGeneral_apply hd, bcast_1n_rn_apply, bcast_n_1n_apply]
  exact congrArg (· + _) (Finset.sum_congr rfl fun k _ => congrArg (_ * ·) (transpose_ix2_apply w ht k n))

/-- The last stage at `(r, j)` is the normalised exponentials of row `r`. -/
theorem softmaxH_apply {R C : ℕ} (hr : (⟨2, ![R, C]⟩ : Shape).ReducesTo [1] ⟨1, ![R]⟩)
    (hred : (⟨2, ![R, C]⟩ : Shape).Reduces [1] ⟨1, ![R]⟩) (hu : 0 < S0.numel)
    (hbz : S0.BroadcastsInDim ⟨1, ![R]⟩ (![] : Fin 0 → Fin 1))
    (hb1 : (⟨1, ![R]⟩ : Shape).BroadcastsInDim ⟨2, ![R, 1]⟩ (![0] : Fin 1 → Fin 2))
    (hb2 : (⟨2, ![R, 1]⟩ : Shape).BroadcastsInDim ⟨2, ![R, C]⟩ (![0, 1] : Fin 2 → Fin 2))
    (v : FVec Ideal (⟨2, ![R, C]⟩ : Shape) .f32) (r : Fin R) (j : Fin C) :
    softmaxH hr hu hbz hb1 hb2 v (ix2 r j) = RowMath.smax (fun k => v (ix2 r k)) j := by
  have he : ∀ k : Fin C,
      Host.exp (subf v (broadcastInDim ⟨2, ![R, C]⟩ ![0, 1] hb2 (broadcastInDim ⟨2, ![R, 1]⟩ ![0] hb1
        (maximumf (broadcastInDim ⟨1, ![R]⟩ ![] hbz (constant S0 .f32 0xFF800000#32))
          (Host.reduce FloatOps.maximumf v (constant S0 .f32 0xFF800000#32) hr hu))))) (ix2 r k)
        = Ideal.exp (v (ix2 r k) - RowMath.rowMax fun k : Fin C => v (ix2 r k)) := by
    intro k
    show Ideal.exp (v (ix2 r k) - broadcastInDim (s := (⟨2, ![R, 1]⟩ : Shape)) ⟨2, ![R, C]⟩ ![0, 1] hb2 _ (ix2 r k)) = _
    rw [bcast_r1_rn_apply, bcast_n_n1_apply, rowMax_apply hr hred]
  unfold softmaxH RowMath.smax
  show Ideal.div (Host.exp (F := Ideal) (s := (⟨2, ![R, C]⟩ : Shape)) (φ := .f32) _ (ix2 r j))
    (broadcastInDim (s := (⟨2, ![R, 1]⟩ : Shape)) ⟨2, ![R, C]⟩ ![0, 1] hb2 _ (ix2 r j)) = _
  rw [bcast_r1_rn_apply, bcast_n_n1_apply, rowSum_apply hr hred, he j]
  exact congrArg (Ideal.div _) (Finset.sum_congr rfl fun k _ => he k)

/-- The first stage at `(r, n)` is the hidden row function of row `r`: the combined weight's first 128 inputs
    meet the own features, its last 128 the neighbour features. -/
theorem sage_apply {R : ℕ}
    {dA : DotDims (⟨2, ![R, 8192]⟩ : Shape) (⟨2, ![8192, 128]⟩ : Shape) (⟨2, ![R, 128]⟩ : Shape)}
    {dW : DotDims (⟨2, ![R, 256]⟩ : Shape) (⟨2, ![256, 256]⟩ : Shape) (⟨2, ![R, 256]⟩ : Shape)}
    (hdA : PlainDot.IsPlain dA) (hdW : PlainDot.IsPlain dW)
    (hr : (⟨2, ![R, 8192]⟩ : Shape).ReducesTo [1] ⟨1, ![R]⟩)
    (hred : (⟨2, ![R, 8192]⟩ : Shape).Reduces [1] ⟨1, ![R]⟩) (hu : 0 < S0.numel)
    (hsc : (⟨1, ![R]⟩ : Shape).ShapeCasts ⟨2, ![R, 1]⟩)
    (hb1 : S0.BroadcastsInDim ⟨2, ![R, 1]⟩ (![] : Fin 0 → Fin 2))
    (hb2 : (⟨2, ![R, 1]⟩ : Shape).BroadcastsInDim ⟨2, ![R, 128]⟩ (![0, 1] : Fin 2 → Fin 2))
    (hc : Shape.Concatenates [(⟨2, ![R, 128]⟩ : Shape), (⟨2, ![R, 128]⟩ : Shape)] ⟨2, ![R, 256]⟩ 1)
    (ht : (⟨2, ![256, 256]⟩ : Shape).Transposes [1, 0] ⟨2, ![256, 256]⟩)
    (hbz : S0.BroadcastsInDim ⟨2, ![R, 256]⟩ (![] : Fin 0 → Fin 2))
    (x : FVec Ideal (⟨2, ![R, 128]⟩ : Shape) .f32) (xall : FVec Ideal (⟨2, ![8192, 128]⟩ : Shape) .f32)
    (adj : FVec Ideal (⟨2, ![R, 8192]⟩ : Shape) .f32) (ws : FVec Ideal (⟨2, ![256, 256]⟩ : Shape) .f32)
    (r : Fin R) (n : Fin 256) :
    sage dA dW hr hu hsc hb1 hb2 hc ht hbz x xall adj ws (ix2 r n)
      = RowMath.hidden (fun k => x (ix2 r k))
          (RowMath.neigh (fun k => adj (ix2 r k)) (fun k j => xall (ix2 k j)))
          (fun k n => ws (ix2 n (RowMath.lo k))) (fun k n => ws (ix2 n (RowMath.hi k))) n := by
  have hng : ∀ j : Fin 128,
      Host.divf (Host.dotGeneral dA none adj xall) (broadcastInDim ⟨2, ![R, 128]⟩ ![0, 1] hb2
        (addf (shapeCast ⟨2, ![R, 1]⟩ (Host.reduceAdd adj (constant S0 .f32 0x00000000#32) hr hu) hsc)
          (broadcastInDim ⟨2, ![R, 1]⟩ ![] hb1 (constant S0 .f32 0x3F800000#32)))) (ix2 r j)
        = RowMath.neigh (fun k => adj (ix2 r k)) (fun k j => xall (ix2 k j)) j := by
    intro j
    unfold RowMath.neigh RowMath.deg
    show Ideal.div (FloatOps.dotGeneral dA none .single adj xall (ix2 r j))
      (broadcastInDim (s := (⟨2, ![R, 1]⟩ : Shape)) ⟨2, ![R, 128]⟩ ![0, 1] hb2 _ (ix2 r j)) = _
    rw [PlainDot.dotGeneral_apply hdA, bcast_r1_rn_apply]
    show Ideal.div _ (shapeCast ⟨2, ![R, 1]⟩ _ hsc (ix2 r (0 : Fin 1)) + Ideal.ofBits .f32 0x3F800000#32) = _
    rw [shapeCast_a_a1_apply, rowSum_apply hr hred]
  unfold sage RowMath.hidden
  show max (FloatOps.dotGeneral dW none .single (concatenate ⟨2, ![R, 256]⟩ 1 [⟨⟨2, ![R, 128]⟩, x⟩, ⟨⟨2, ![R, 128]⟩, _⟩] hc)
      (transpose ⟨2, ![256, 256]⟩ [1, 0] ws ht) (ix2 r n)) (Ideal.ofBits .f32 0x00000000#32) = _
  rw [PlainDot.dotGeneral_apply hdW, RowMath.sum_split]
  refine congrArg (max · _) (congrArg₂ (· + ·) (Finset.sum_congr rfl fun k _ => ?_) (Finset.sum_congr rfl fun k _ => ?_))
  · show _ * _ = x (ix2 r k) * ws (ix2 n (RowMath.lo k))
    rw [transpose_ix2_apply]
    refine congrArg (· * _) ?_
    exact concatenate_pair_apply_left 1 x _ hc (ix2 r (RowMath.lo k)) rfl (ix2 r k) (fun b => by
      match b with
      | ⟨0, _⟩ => rfl
      | ⟨1, _⟩ => rfl)
  · show _ * _ = RowMath.neigh (fun k => adj (ix2 r k)) (fun k j => xall (ix2 k j)) k * ws (ix2 n (RowMath.hi k))
    rw [transpose_ix2_apply]
    refine (congrArg (· * _) ?_).trans (congrArg (· * _) (hng k))
    exact concatenate_pair_apply_right 1 x _ hc (ix2 r (RowMath.hi k)) rfl rfl (ix2 r k) (fun b hb => by
      match b with
      | ⟨0, _⟩ => rfl
      | ⟨1, _⟩ => exact absurd rfl hb) (by show k.val + 128 = 128 + k.val; omega)

end Cert.HostStages

end
-- ==== Proof.RefValue.lean ====
/-
  The reference's result is the same function of the arguments as the kernel's: at the ideal values the
  composition of its five stages, read at `(r, j)`, is the output row function of row `r` — the last stage over
  three dense stages over the first stage, each by its read-at-an-entry lemma of `HostValue`.
-/
import proofs.«132084_g18940805775915_cont_8to1_958_17_alg».proof.Proof.RefRun
import proofs.«132084_g18940805775915_cont_8to1_958_17_alg».proof.Proof.HostValue

open scoped BigOperators

noncomputable section

namespace Cert.ReferenceIdeal.RefValue

open Cert.ReferenceIdeal Cert.ReferenceIdeal.Gen Idealize.ShloMosaic Idealize.ShloMosaic.ValueIdx Cert.HostStages

/-! ## The printed dimension numbers are the plain ones -/

theorem plain_adj : PlainDot.IsPlain dot_S8192x8192_S8192x128_S8192x128_1_0_0_1_n_n := ⟨rfl, rfl, rfl, rfl, rfl, rfl⟩
theorem plain_w : PlainDot.IsPlain dot_S8192x256_S256x256_S8192x256_1_0_0_1_n_n := ⟨rfl, rfl, rfl, rfl, rfl, rfl⟩
theorem plain_l2 : PlainDot.IsPlain dot_S8192x256_S256x128_S8192x128_1_0_0_1_n_n := ⟨rfl, rfl, rfl, rfl, rfl, rfl⟩
theorem plain_l3 : PlainDot.IsPlain dot_S8192x128_S128x64_S8192x64_1_0_0_1_n_n := ⟨rfl, rfl, rfl, rfl, rfl, rfl⟩

/-- The row reductions' shapes, in the form that names the inserted coordinate. -/
theorem reduces_adj : S8192x8192.Reduces [1] S8192 := by decide
theorem reduces_out : S8192x64.Reduces [1] S8192 := by decide

/-- The reference's result array is `RowMath.outArr` of the nine argument arrays. -/
theorem refOut_eq (x : Vec Ideal S8192x128 .f32) (adj : Vec Ideal S8192x8192 .f32) (ws w1 : Vec Ideal S256x256 .f32)
    (b1 : Vec Ideal S256 .f32) (w2 : Vec Ideal S128x256 .f32) (b2 : Vec Ideal S128 .f32) (w3 : Vec Ideal S64x128 .f32)
    (b3 : Vec Ideal S64 .f32) :
    RefRun.refOut (F := Ideal) x adj ws w1 b1 w2 b2 w3 b3 = RowMath.outArr x adj ws w1 b1 w2 b2 w3 b3 := by
  funext i
  obtain ⟨r, j, rfl⟩ : ∃ (r : Fin 8192) (j : Fin 64), i = ix2 r j := ⟨i 0, i 1, eq_ix2 i⟩
  show RefRun.refOut (F := Ideal) x adj ws w1 b1 w2 b2 w3 b3 (ix2 r j) = RowMath.outAt x adj ws w1 b1 w2 b2 w3 b3 r j
  unfold RefRun.refOut RowMath.outAt RowMath.outRow
  rw [softmaxH_apply _ reduces_out]
  refine congrArg (RowMath.smax · j) (funext fun n3 => ?_)
  rw [dense_apply plain_l3]
  refine congrArg (RowMath.layer · _ _ n3) (funext fun n2 => ?_)
  rw [dense_apply plain_l2]
  refine congrArg (RowMath.layer · _ _ n2) (funext fun n1 => ?_)
  rw [dense_apply plain_w]
  refine congrArg (RowMath.layer · _ _ n1) (funext fun n0 => ?_)
  exact sage_apply plain_adj plain_w _ reduces_adj _ _ _ _ _ _ _ x x adj ws r n0

end Cert.ReferenceIdeal.RefValue

end
-- ==== Proof.lean ====
/-
  The proof of `Cert.Claim`: a dense-adjacency GraphSAGE layer with a three-layer leaky-rectifier head and a row
  softmax, fused into one kernel that handles 512 rows of the adjacency matrix per grid point, against the plain
  array program.

  Both programs compute, for every row `r`, the same function of the arguments on the extended reals
  (`RowMath.outArr`): the degree `Σ_k adj r k + 1`; the neighbour features `(Σ_k adj r k · x k j) / degree`; the
  hidden row `max (own · Wₓ + neighbour · Wₙ) 0`; three times `leaky (h · Wᵀ + b)`; and the row's exponentials
  about its maximum over their sum. The kernel multiplies own and neighbour features by the two column halves of
  the combined weight and adds, where the reference joins the features side by side and multiplies once: a sum
  over 256 inputs split into its two halves, which needs only that addition of extended reals is commutative and
  associative — so no finiteness of the inputs is used. The reference also takes the maximum of each row maximum
  with `-∞` once more, which changes nothing. Every float literal is the same word on both sides and is never
  evaluated.

  The kernel's side: each grid point's stored block is the row function of its staged blocks
  (`KernelStages`, `KernelBlock`), the staged blocks are rows `512 t …` of the adjacency matrix, the whole feature
  matrix and the transposed weights @main prepared, and the sixteen blocks tile the result (`KernelArray`). The
  reference's side: its @main as a straight line cut at its five stages (`RefOps`, `RefRun`), each stage the same
  row function (`HostStages`, `HostValue`, `RefValue`). The frames of the two kernels are the generated ones;
  the reference's frame is its run with the result dropped; the ideal pass rewrote nothing, so `preserves` is
  `True`.
-/
import proofs.«132084_g18940805775915_cont_8to1_958_17_alg».proof.Defs
import proofs.«132084_g18940805775915_cont_8to1_958_17_alg».proof.Proof.Gen.Kernel
import proofs.«132084_g18940805775915_cont_8to1_958_17_alg».proof.Proof.Gen.Kernel.Skeleton
import proofs.«132084_g18940805775915_cont_8to1_958_17_alg».proof.Proof.Gen.Kernel.Launch
import proofs.«132084_g18940805775915_cont_8to1_958_17_alg».proof.Proof.Gen.Kernel.Points
import proofs.«132084_g18940805775915_cont_8to1_958_17_alg».proof.Proof.Gen.Kernel.Frame
import proofs.«132084_g18940805775915_cont_8to1_958_17_alg».proof.Proof.Gen.KernelIdeal
import proofs.«132084_g18940805775915_cont_8to1_958_17_alg».proof.Proof.Gen.KernelIdeal.Skeleton
import proofs.«132084_g18940805775915_cont_8to1_958_17_alg».proof.Proof.Gen.KernelIdeal.Launch
import proofs.«132084_g18940805775915_cont_8to1_958_17_alg».proof.Proof.Gen.KernelIdeal.Points
import proofs.«132084_g18940805775915_cont_8to1_958_17_alg».proof.Proof.Gen.KernelIdeal.Frame
import proofs.«132084_g18940805775915_cont_8to1_958_17_alg».proof.Proof.Gen.KernelIdeal.Value
import proofs.«132084_g18940805775915_cont_8to1_958_17_alg».proof.Proof.Gen.ReferenceIdeal
import proofs.«132084_g18940805775915_cont_8to1_958_17_alg».proof.Proof.Gen.Pre_finite_inputs
import proofs.«132084_g18940805775915_cont_8to1_958_17_alg».proof.Proof.KernelArray
import proofs.«132084_g18940805775915_cont_8to1_958_17_alg».proof.Proof.RefValue
import Idealize.ShloMosaic.Adequacy
import Idealize.ShloMosaic.Init

noncomputable section

namespace Cert.Proof

open Idealize.ShloMosaic Idealize.SL.Sem

/-- The word-level kernel runs and leaves its arguments unchanged: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments unchanged: its run, the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- From memories that agree on the nine arguments both programs end with the result at the one function
    `RowMath.outArr` of those arguments, and with the arguments unchanged. -/
theorem algebraic : Cert.algebraic_KernelIdeal_ReferenceIdeal := by
  intro m ρ m' ρ' _ hagree
  refine ⟨fun c => Cert.KernelIdeal.Arr.G m c, Cert.KernelIdeal.Arr.run m ρ, ?_⟩
  refine (θ_run Cert.ReferenceIdeal.defs _ _).mono (fun _ h c => ⟨(h c).1.trans ?_, (h c).2⟩)
    (Cert.ReferenceIdeal.RefRun.run (F := Ideal) m' ρ')
  obtain ⟨h0, h1, h2, h3, h4, h5, h6, h7, h8⟩ := hagree c
  rw [Cert.ReferenceIdeal.RefValue.refOut_eq, h0, h1, h2, h3, h4, h5, h6, h7, h8]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
